-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v79)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v79) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v101) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256x25 : Shape := ⟨3, ![8192, 256, 25]⟩
abbrev S256x128 : Shape := ⟨2, ![256, 128]⟩
abbrev S128 : Shape := ⟨1, ![128]⟩
abbrev S128x64 : Shape := ⟨2, ![128, 64]⟩
abbrev S64 : Shape := ⟨1, ![64]⟩
abbrev S1600x64 : Shape := ⟨2, ![1600, 64]⟩
abbrev S64x1 : Shape := ⟨2, ![64, 1]⟩
abbrev S1 : Shape := ⟨1, ![1]⟩
abbrev S75 : Shape := ⟨1, ![75]⟩
abbrev S_ : Shape := ⟨0, ![]⟩

class Facts : Prop where
  bcast_S_S8192x256x25 : S_.BroadcastsInDim S8192x256x25 (![] : Fin 0 → Fin S8192x256x25.rank)
  reducesTo_S8192x256x25_S_d0_1_2 : S8192x256x25.ReducesTo [0, 1, 2] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S1600x64 : S_.BroadcastsInDim S1600x64 (![] : Fin 0 → Fin S1600x64.rank)
  reducesTo_S1600x64_S_d0_1 : S1600x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_
  bcast_S_S75 : S_.BroadcastsInDim S75 (![] : Fin 0 → Fin S75.rank)
  reducesTo_S75_S_d0 : S75.ReducesTo [0] S_

variable [Facts]

def fn_part2 {F : FTy → Type} [FloatOps F] (main_arg7 : FVec F S64x1 .f32) (main_arg8 : FVec F S1 .f32) (main_arg9 : IVec S75 32) (main_v33 : IVec S_ 1) : IVec S_ 1 :=
  let main_v34 : FVec F S64x1 .f32 := Host.absf main_arg7
  let main_cst_12 : FVec F S_ .f32 := constant S_ .f32 0x7F800000#32
  let main_v35 : FVec F S64x1 .f32 := broadcastInDim S64x1 ![] bcast_S_S64x1 main_cst_12
  let main_v36 : IVec S64x1 1 := cmpf .olt main_v34 main_v35
  let main_c_13 : IVec S_ 1 := constantI S_ 1 1#1
  let main_v37 : IVec S_ 1 := (fun x v => Host.reduce IntOp.andi x v reducesTo_S64x1_S_d0_1 h_S_) main_v36 main_c_13
  let main_v38 : IVec S_ 1 := andi main_v33 main_v37
  let main_v39 : FVec F S1 .f32 := Host.absf main_arg8
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  let main_c_16 : IVec S_ 32 := constantI S_ 32 0#32
  let main_v44 : IVec S75 32 := broadcastInDim S75 ![] bcast_S_S75 main_c_16
  let main_v45 : IVec S75 1 := cmpi .sge main_arg9 main_v44
  let main_c_17 : IVec S_ 32 := constantI S_ 32 25#32
  let main_v46 : IVec S75 32 := broadcastInDim S75 ![] bcast_S_S75 main_c_17
  let main_v47 : IVec S75 1 := cmpi .slt main_arg9 main_v46
  let main_v48 : IVec S75 1 := andi main_v45 main_v47
  let main_c_18 : IVec S_ 1 := constantI S_ 1 1#1
  let main_v49 : IVec S_ 1 := (fun x v => Host.reduce IntOp.andi x v reducesTo_S75_S_d0 h_S_) main_v48 main_c_18
  let main_v50 : IVec S_ 1 := andi main_v43 main_v49
  main_v50

def fn_part1 {F : FTy → Type} [FloatOps F] (main_arg4 : FVec F S64 .f32) (main_arg5 : FVec F S1600x64 .f32) (main_arg6 : FVec F S64 .f32) (main_arg7 : FVec F S64x1 .f32) (main_arg8 : FVec F S1 .f32) (main_arg9 : IVec S75 32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S1600x64 .f32 := Host.absf main_arg5
  let main_cst_8 : FVec F S_ .f32 := constant S_ .f32 0x7F800000#32
  let main_v25 : FVec F S1600x64 .f32 := broadcastInDim S1600x64 ![] bcast_S_S1600x64 main_cst_8
  let main_v26 : IVec S1600x64 1 := cmpf .olt main_v24 main_v25
  let main_c_9 : IVec S_ 1 := constantI S_ 1 1#1
  let main_v27 : IVec S_ 1 := (fun x v => Host.reduce IntOp.andi x v reducesTo_S1600x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_arg8 main_arg9 main_v33

def fn {F : FTy → Type} [FloatOps F] (main_arg0 : FVec F S8192x256x25 .f32) (main_arg1 : FVec F S256x128 .f32) (main_arg2 : FVec F S128 .f32) (main_arg3 : FVec F S128x64 .f32) (main_arg4 : FVec F S64 .f32) (main_arg5 : FVec F S1600x64 .f32) (main_arg6 : FVec F S64 .f32) (main_arg7 : FVec F S64x1 .f32) (main_arg8 : FVec F S1 .f32) (main_arg9 : IVec S75 32) (main_arg10 : IVec S75 32) : IVec S_ 1 :=
  let main_v0 : FVec F S8192x256x25 .f32 := Host.absf main_arg0
  let main_cst : FVec F S_ .f32 := constant S_ .f32 0x7F800000#32
  let main_v1 : FVec F S8192x256x25 .f32 := broadcastInDim S8192x256x25 ![] bcast_S_S8192x256x25 main_cst
  let main_v2 : IVec S8192x256x25 1 := cmpf .olt main_v0 main_v1
  let main_c : IVec S_ 1 := constantI S_ 1 1#1
  let main_v3 : IVec S_ 1 := (fun x v => Host.reduce IntOp.andi x v reducesTo_S8192x256x25_S_d0_1_2 h_S_) main_v2 main_c
  let main_v4 : FVec F S256x128 .f32 := Host.absf main_arg1
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg3
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg4 main_arg5 main_arg6 main_arg7 main_arg8 main_arg9 main_v13 main_v16
-- ==== Kernel.lean ====
abbrev S8192x256x25 : Shape := ⟨3, ![8192, 256, 25]⟩
abbrev S256x128 : Shape := ⟨2, ![256, 128]⟩
abbrev S128 : Shape := ⟨1, ![128]⟩
abbrev S128x64 : Shape := ⟨2, ![128, 64]⟩
abbrev S64 : Shape := ⟨1, ![64]⟩
abbrev S1600x64 : Shape := ⟨2, ![1600, 64]⟩
abbrev S64x1 : Shape := ⟨2, ![64, 1]⟩
abbrev S1 : Shape := ⟨1, ![1]⟩
abbrev S75 : Shape := ⟨1, ![75]⟩
abbrev S8192x25x256 : Shape := ⟨3, ![8192, 25, 256]⟩
abbrev S204800x256 : Shape := ⟨2, ![204800, 256]⟩
abbrev S1x128 : Shape := ⟨2, ![1, 128]⟩
abbrev S204800x128 : Shape := ⟨2, ![204800, 128]⟩
abbrev S4096x256 : Shape := ⟨2, ![4096, 256]⟩
abbrev S4096x128 : Shape := ⟨2, ![4096, 128]⟩
abbrev S25x256 : Shape := ⟨2, ![25, 256]⟩
abbrev S25x128 : Shape := ⟨2, ![25, 128]⟩
abbrev S_ : Shape := ⟨0, ![]⟩
abbrev S25 : Shape := ⟨1, ![25]⟩
abbrev S75x1 : Shape := ⟨2, ![75, 1]⟩
abbrev S75x128 : Shape := ⟨2, ![75, 128]⟩
abbrev S1x64 : Shape := ⟨2, ![1, 64]⟩
abbrev S204800x64 : Shape := ⟨2, ![204800, 64]⟩
abbrev S4096x64 : Shape := ⟨2, ![4096, 64]⟩
abbrev S25x64 : Shape := ⟨2, ![25, 64]⟩
abbrev S75x64 : Shape := ⟨2, ![75, 64]⟩
abbrev S8192x1600 : Shape := ⟨2, ![8192, 1600]⟩
abbrev S8192x64 : Shape := ⟨2, ![8192, 64]⟩
abbrev S1024x1600 : Shape := ⟨2, ![1024, 1600]⟩
abbrev S1024x64 : Shape := ⟨2, ![1024, 64]⟩
abbrev S8192x1 : Shape := ⟨2, ![8192, 1]⟩
abbrev S1x1 : Shape := ⟨2, ![1, 1]⟩
abbrev S8192x1x1 : Shape := ⟨3, ![8192, 1, 1]⟩

abbrev nBuf : Space → Nat
  | .hbm => 109
  | .vmem => 18
  | .smem => 0
  | _ => 0

abbrev bufTy : (tb : Table) → Fin (tcTables nBuf tb) → BufTy
  | .hbm, ⟨0, _⟩ => ⟨S8192x256x25, .f32⟩
  | .hbm, ⟨1, _⟩ => ⟨S256x128, .f32⟩
  | .hbm, ⟨2, _⟩ => ⟨S128, .f32⟩
  | .hbm, ⟨3, _⟩ => ⟨S128x64, .f32⟩
  | .hbm, ⟨4, _⟩ => ⟨S64, .f32⟩
  | .hbm, ⟨5, _⟩ => ⟨S1600x64, .f32⟩
  | .hbm, ⟨6, _⟩ => ⟨S64, .f32⟩
  | .hbm, ⟨7, _⟩ => ⟨S64x1, .f32⟩
  | .hbm, ⟨8, _⟩ => ⟨S1, .f32⟩
  | .hbm, ⟨9, _⟩ => ⟨S75, .i32⟩
  | .hbm, ⟨10, _⟩ => ⟨S75, .i32⟩
  | .hbm, ⟨11, _⟩ => ⟨S8192x25x256, .f32⟩
  | .hbm, ⟨12, _⟩ => ⟨S204800x256, .f32⟩
  | .hbm, ⟨13, _⟩ => ⟨S1x128, .f32⟩
  | .hbm, ⟨14, _⟩ => ⟨S204800x128, .f32⟩
  | .hbm, ⟨15, _⟩ => ⟨S25x256, .f32⟩
  | .hbm, ⟨16, _⟩ => ⟨S25x128, .f32⟩
  | .hbm, ⟨17, _⟩ => ⟨S_, .f32⟩
  | .hbm, ⟨18, _⟩ => ⟨S25, .f32⟩
  | .hbm, ⟨19, _⟩ => ⟨S_, .i32⟩
  | .hbm, ⟨20, _⟩ => ⟨S75, .i32⟩
  | .hbm, ⟨21, _⟩ => ⟨S75, .i1⟩
  | .hbm, ⟨22, _⟩ => ⟨S_, .i32⟩
  | .hbm, ⟨23, _⟩ => ⟨S75, .i32⟩
  | .hbm, ⟨24, _⟩ => ⟨S75, .i32⟩
  | .hbm, ⟨25, _⟩ => ⟨S75, .i32⟩
  | .hbm, ⟨26, _⟩ => ⟨S75x1, .i32⟩
  | .hbm, ⟨27, _⟩ => ⟨S_, .f32⟩
  | .hbm, ⟨28, _⟩ => ⟨S75, .f32⟩
  | .hbm, ⟨29, _⟩ => ⟨S25, .f32⟩
  | .hbm, ⟨30, _⟩ => ⟨S_, .i32⟩
  | .hbm, ⟨31, _⟩ => ⟨S75, .i32⟩
  | .hbm, ⟨32, _⟩ => ⟨S75, .i1⟩
  | .hbm, ⟨33, _⟩ => ⟨S_, .i32⟩
  | .hbm, ⟨34, _⟩ => ⟨S75, .i32⟩
  | .hbm, ⟨35, _⟩ => ⟨S75, .i32⟩
  | .hbm, ⟨36, _⟩ => ⟨S75, .i32⟩
  | .hbm, ⟨37, _⟩ => ⟨S75x1, .i32⟩
  | .hbm, ⟨38, _⟩ => ⟨S75, .f32⟩
  | .hbm, ⟨39, _⟩ => ⟨S_, .i32⟩
  | .hbm, ⟨40, _⟩ => ⟨S75, .i32⟩
  | .hbm, ⟨41, _⟩ => ⟨S75, .i1⟩
  | .hbm, ⟨42, _⟩ => ⟨S_, .i32⟩
  | .hbm, ⟨43, _⟩ => ⟨S75, .i32⟩
  | .hbm, ⟨44, _⟩ => ⟨S75, .i32⟩
  | .hbm, ⟨45, _⟩ => ⟨S75, .i32⟩
  | .hbm, ⟨46, _⟩ => ⟨S75x1, .i32⟩
  | .hbm, ⟨47, _⟩ => ⟨S75, .f32⟩
  | .hbm, ⟨48, _⟩ => ⟨S75, .f32⟩
  | .hbm, ⟨49, _⟩ => ⟨S75, .f32⟩
  | .hbm, ⟨50, _⟩ => ⟨S75x1, .f32⟩
  | .hbm, ⟨51, _⟩ => ⟨S_, .i32⟩
  | .hbm, ⟨52, _⟩ => ⟨S75, .i32⟩
  | .hbm, ⟨53, _⟩ => ⟨S75, .i1⟩
  | .hbm, ⟨54, _⟩ => ⟨S_, .i32⟩
  | .hbm, ⟨55, _⟩ => ⟨S75, .i32⟩
  | .hbm, ⟨56, _⟩ => ⟨S75, .i32⟩
  | .hbm, ⟨57, _⟩ => ⟨S75, .i32⟩
  | .hbm, ⟨58, _⟩ => ⟨S75x1, .i32⟩
  | .hbm, ⟨59, _⟩ => ⟨S75x128, .f32⟩
  | .hbm, ⟨60, _⟩ => ⟨S75x128, .f32⟩
  | .hbm, ⟨61, _⟩ => ⟨S75x128, .f32⟩
  | .hbm, ⟨62, _⟩ => ⟨S_, .f32⟩
  | .hbm, ⟨63, _⟩ => ⟨S25x128, .f32⟩
  | .hbm, ⟨64, _⟩ => ⟨S75x1, .i32⟩
  | .hbm, ⟨65, _⟩ => ⟨S25x128, .f32⟩
  | .hbm, ⟨66, _⟩ => ⟨S1x128, .f32⟩
  | .hbm, ⟨67, _⟩ => ⟨S25x128, .f32⟩
  | .hbm, ⟨68, _⟩ => ⟨S25x128, .f32⟩
  | .hbm, ⟨69, _⟩ => ⟨S_, .f32⟩
  | .hbm, ⟨70, _⟩ => ⟨S25x128, .f32⟩
  | .hbm, ⟨71, _⟩ => ⟨S25x128, .f32⟩
  | .hbm, ⟨72, _⟩ => ⟨S_, .i32⟩
  | .hbm, ⟨73, _⟩ => ⟨S1, .i32⟩
  | .hbm, ⟨74, _⟩ => ⟨S204800x128, .f32⟩
  | .hbm, ⟨75, _⟩ => ⟨S1x64, .f32⟩
  | .hbm, ⟨76, _⟩ => ⟨S204800x64, .f32⟩
  | .hbm, ⟨77, _⟩ => ⟨S25x128, .f32⟩
  | .hbm, ⟨78, _⟩ => ⟨S25x64, .f32⟩
  | .hbm, ⟨79, _⟩ => ⟨S75x1, .f32⟩
  | .hbm, ⟨80, _⟩ => ⟨S_, .i32⟩
  | .hbm, ⟨81, _⟩ => ⟨S75, .i32⟩
  | .hbm, ⟨82, _⟩ => ⟨S75, .i1⟩
  | .hbm, ⟨83, _⟩ => ⟨S_, .i32⟩
  | .hbm, ⟨84, _⟩ => ⟨S75, .i32⟩
  | .hbm, ⟨85, _⟩ => ⟨S75, .i32⟩
  | .hbm, ⟨86, _⟩ => ⟨S75, .i32⟩
  | .hbm, ⟨87, _⟩ => ⟨S75x1, .i32⟩
  | .hbm, ⟨88, _⟩ => ⟨S75x64, .f32⟩
  | .hbm, ⟨89, _⟩ => ⟨S75x64, .f32⟩
  | .hbm, ⟨90, _⟩ => ⟨S75x64, .f32⟩
  | .hbm, ⟨91, _⟩ => ⟨S_, .f32⟩
  | .hbm, ⟨92, _⟩ => ⟨S25x64, .f32⟩
  | .hbm, ⟨93, _⟩ => ⟨S75x1, .i32⟩
  | .hbm, ⟨94, _⟩ => ⟨S25x64, .f32⟩
  | .hbm, ⟨95, _⟩ => ⟨S1x64, .f32⟩
  | .hbm, ⟨96, _⟩ => ⟨S25x64, .f32⟩
  | .hbm, ⟨97, _⟩ => ⟨S25x64, .f32⟩
  | .hbm, ⟨98, _⟩ => ⟨S_, .i32⟩
  | .hbm, ⟨99, _⟩ => ⟨S1, .i32⟩
  | .hbm, ⟨100, _⟩ => ⟨S204800x64, .f32⟩
  | .hbm, ⟨101, _⟩ => ⟨S8192x1600, .f32⟩
  | .hbm, ⟨102, _⟩ => ⟨S1x64, .f32⟩
  | .hbm, ⟨103, _⟩ => ⟨S8192x64, .f32⟩
  | .hbm, ⟨104, _⟩ => ⟨S8192x1, .f32⟩
  | .hbm, ⟨105, _⟩ => ⟨S1x1, .f32⟩
  | .hbm, ⟨106, _⟩ => ⟨S8192x1, .f32⟩
  | .hbm, ⟨107, _⟩ => ⟨S8192x1, .f32⟩
  | .hbm, ⟨108, _⟩ => ⟨S8192x1x1, .f32⟩
  | .local _ .vmem, ⟨0, _⟩ => ⟨S4096x256, .f32⟩
  | .local _ .vmem, ⟨1, _⟩ => ⟨S4096x256, .f32⟩
  | .local _ .vmem, ⟨2, _⟩ => ⟨S256x128, .f32⟩
  | .local _ .vmem, ⟨3, _⟩ => ⟨S1x128, .f32⟩
  | .local _ .vmem, ⟨4, _⟩ => ⟨S4096x128, .f32⟩
  | .local _ .vmem, ⟨5, _⟩ => ⟨S4096x128, .f32⟩
  | .local _ .vmem, ⟨6, _⟩ => ⟨S4096x128, .f32⟩
  | .local _ .vmem, ⟨7, _⟩ => ⟨S4096x128, .f32⟩
  | .local _ .vmem, ⟨8, _⟩ => ⟨S128x64, .f32⟩
  | .local _ .vmem, ⟨9, _⟩ => ⟨S1x64, .f32⟩
  | .local _ .vmem, ⟨10, _⟩ => ⟨S4096x64, .f32⟩
  | .local _ .vmem, ⟨11, _⟩ => ⟨S4096x64, .f32⟩
  | .local _ .vmem, ⟨12, _⟩ => ⟨S1024x1600, .f32⟩
  | .local _ .vmem, ⟨13, _⟩ => ⟨S1024x1600, .f32⟩
  | .local _ .vmem, ⟨14, _⟩ => ⟨S1600x64, .f32⟩
  | .local _ .vmem, ⟨15, _⟩ => ⟨S1x64, .f32⟩
  | .local _ .vmem, ⟨16, _⟩ => ⟨S1024x64, .f32⟩
  | .local _ .vmem, ⟨17, _⟩ => ⟨S1024x64, .f32⟩
  | _, _ => ⟨S8192x256x25, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst : Ref sig .tc := ⟨.hbm, 17, rfl⟩
abbrev main_v6 : Ref sig .tc := ⟨.hbm, 18, rfl⟩
abbrev main_c : Ref sig .tc := ⟨.hbm, 19, rfl⟩
abbrev main_v7 : Ref sig .tc := ⟨.hbm, 20, rfl⟩
abbrev main_v8 : Ref sig .tc := ⟨.hbm, 21, rfl⟩
abbrev main_c_0 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_1 : Ref sig .tc := ⟨.hbm, 27, rfl⟩
abbrev main_v13 : Ref sig .tc := ⟨.hbm, 28, rfl⟩
abbrev main_v14 : Ref sig .tc := ⟨.hbm, 29, rfl⟩
abbrev main_c_2 : Ref sig .tc := ⟨.hbm, 30, rfl⟩
abbrev main_v15 : Ref sig .tc := ⟨.hbm, 31, rfl⟩
abbrev main_v16 : Ref sig .tc := ⟨.hbm, 32, rfl⟩
abbrev main_c_3 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_4 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_c_6 : Ref sig .tc := ⟨.hbm, 51, rfl⟩
abbrev main_v32 : Ref sig .tc := ⟨.hbm, 52, rfl⟩
abbrev main_v33 : Ref sig .tc := ⟨.hbm, 53, rfl⟩
abbrev main_c_7 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_8 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_call0_cst : Ref sig .tc := ⟨.hbm, 69, rfl⟩
abbrev main_call0_v0 : Ref sig .tc := ⟨.hbm, 70, rfl⟩
abbrev main_v47 : Ref sig .tc := ⟨.hbm, 71, rfl⟩
abbrev main_c_9 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_c_10 : Ref sig .tc := ⟨.hbm, 80, rfl⟩
abbrev main_v55 : Ref sig .tc := ⟨.hbm, 81, rfl⟩
abbrev main_v56 : Ref sig .tc := ⟨.hbm, 82, rfl⟩
abbrev main_c_11 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_cst_12 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_c_13 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4096x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S4096x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x1600 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1600x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S1024x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  transposes_S8192x256x25_S8192x25x256_0_2_1 : S8192x256x25.Transposes [0, 2, 1] S8192x25x256
  shapeCasts_S8192x25x256_S204800x256 : S8192x25x256.ShapeCasts S204800x256
  shapeCasts_S128_S1x128 : S128.ShapeCasts S1x128
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4096x128 : S1x128.Broadcasts S4096x128
  inb_S4096x128_S4096x128_0_0 : ∀ a, (![0, 0] : Fin 2 → Nat) a + S4096x128.size a ≤ S4096x128.size a
  h_S4096x128 : 0 < S4096x128.numel
  slices_S204800x256_S25x256_0_0 : S204800x256.Slices ![0, 0] S25x256
  bcast_S_S25 : S_.BroadcastsInDim S25 (![] : Fin 0 → Fin S25.rank)
  bcast_S_S75 : S_.BroadcastsInDim S75 (![] : Fin 0 → Fin S75.rank)
  bcast_S75_S75x1_0 : S75.BroadcastsInDim S75x1 (![0] : Fin 1 → Fin S75x1.rank)
  bcast_S75x1_S75x128_0_1 : S75x1.BroadcastsInDim S75x128 (![0, 1] : Fin 2 → Fin S75x128.rank)
  bcast_S_S25x128 : S_.BroadcastsInDim S25x128 (![] : Fin 0 → Fin S25x128.rank)
  bcast_S128_S1x128_1 : S128.BroadcastsInDim S1x128 (![1] : Fin 1 → Fin S1x128.rank)
  bcast_S1x128_S25x128_0_1 : S1x128.BroadcastsInDim S25x128 (![0, 1] : Fin 2 → Fin S25x128.rank)
  bcast_S_S1 : S_.BroadcastsInDim S1 (![] : Fin 0 → Fin S1.rank)
  shapeCasts_S64_S1x64 : S64.ShapeCasts S1x64
  shapeCasts_S4096x128_S4096x128 : S4096x128.ShapeCasts S4096x128
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4096x64 : S1x64.Broadcasts S4096x64
  inb_S4096x64_S4096x64_0_0 : ∀ a, (![0, 0] : Fin 2 → Nat) a + S4096x64.size a ≤ S4096x64.size a
  h_S4096x64 : 0 < S4096x64.numel
  slices_S204800x128_S25x128_0_0 : S204800x128.Slices ![0, 0] S25x128
  bcast_S75x1_S75x64_0_1 : S75x1.BroadcastsInDim S75x64 (![0, 1] : Fin 2 → Fin S75x64.rank)
  bcast_S_S25x64 : S_.BroadcastsInDim S25x64 (![] : Fin 0 → Fin S25x64.rank)
  bcast_S64_S1x64_1 : S64.BroadcastsInDim S1x64 (![1] : Fin 1 → Fin S1x64.rank)
  bcast_S1x64_S25x64_0_1 : S1x64.BroadcastsInDim S25x64 (![0, 1] : Fin 2 → Fin S25x64.rank)
  shapeCasts_S204800x64_S8192x1600 : S204800x64.ShapeCasts S8192x1600
  inb_S1024x1600_S1024x1600_0_0 : ∀ a, (![0, 0] : Fin 2 → Nat) a + S1024x1600.size a ≤ S1024x1600.size a
  h_S1024x1600 : 0 < S1024x1600.numel
  shapeCasts_S1024x1600_S1024x1600 : S1024x1600.ShapeCasts S1024x1600
  inb_S1600x64_S1600x64_0_0 : ∀ a, (![0, 0] : Fin 2 → Nat) a + S1600x64.size a ≤ S1600x64.size a
  h_S1600x64 : 0 < S1600x64.numel
  broadcasts_S1x64_S1024x64 : S1x64.Broadcasts S1024x64
  inb_S1024x64_S1024x64_0_0 : ∀ a, (![0, 0] : Fin 2 → Nat) a + S1024x64.size a ≤ S1024x64.size a
  h_S1024x64 : 0 < S1024x64.numel
  bcast_S1_S1x1_1 : S1.BroadcastsInDim S1x1 (![1] : Fin 1 → Fin S1x1.rank)
  bcast_S1x1_S8192x1_0_1 : S1x1.BroadcastsInDim S8192x1 (![0, 1] : Fin 2 → Fin S8192x1.rank)
  bcast_S8192x1_S8192x1x1_0_1 : S8192x1.BroadcastsInDim S8192x1x1 (![0, 1] : Fin 2 → Fin S8192x1x1.rank)
  dot_S4096x256_S256x128_S4096x128_1_0_0_1_n_n_wf : DotDims.WF S4096x256 S256x128 S4096x128 [1] [0] [0] [1] [] []
  dot_S25x256_S256x128_S25x128_1_0_0_1_n_n_wf : DotDims.WF S25x256 S256x128 S25x128 [1] [0] [0] [1] [] []
  scatter_S25_S75x1_S75_n_0_0_1_wf : ScatterDims.WF S25 S75x1 S75 [] [0] [0] 1
  gather_S25_S75x1_S75_n_0_n_n_0_1_1_wf : GatherDims.WF S25 S75x1 S75 [] [0] [] [0] [] 1 ![1]
  gather_S25x128_S75x1_S75x128_1_0_n_n_0_1_1128_wf : GatherDims.WF S25x128 S75x1 S75x128 [1] [0] [] [0] [] 1 ![1, 128]
  scatter_S25x128_S75x1_S75x128_1_0_0_1_wf : ScatterDims.WF S25x128 S75x1 S75x128 [1] [0] [0] 1
  scatter_S204800x128_S1_S25x128_01_n_0_0_wf : ScatterDims.WF S204800x128 S1 S25x128 [0, 1] [] [0] 0
  dot_S4096x128_S128x64_S4096x64_1_0_0_1_n_n_wf : DotDims.WF S4096x128 S128x64 S4096x64 [1] [0] [0] [1] [] []
  dot_S25x128_S128x64_S25x64_1_0_0_1_n_n_wf : DotDims.WF S25x128 S128x64 S25x64 [1] [0] [0] [1] [] []
  gather_S25x64_S75x1_S75x64_1_0_n_n_0_1_164_wf : GatherDims.WF S25x64 S75x1 S75x64 [1] [0] [] [0] [] 1 ![1, 64]
  scatter_S25x64_S75x1_S75x64_1_0_0_1_wf : ScatterDims.WF S25x64 S75x1 S75x64 [1] [0] [0] 1
  scatter_S204800x64_S1_S25x64_01_n_0_0_wf : ScatterDims.WF S204800x64 S1 S25x64 [0, 1] [] [0] 0
  dot_S1024x1600_S1600x64_S1024x64_1_0_0_1_n_n_wf : DotDims.WF S1024x1600 S1600x64 S1024x64 [1] [0] [0] [1] [] []
  dot_S8192x64_S64x1_S8192x1_1_0_0_1_n_n_wf : DotDims.WF S8192x64 S64x1 S8192x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x256.size a ≤ S204800x256.size a
  hwx0_0 : ∀ i : grid0.Coords, EltTy.bits .f32 = 32 ∨ (Rect.block (s := S204800x256) S4096x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x128.size a ≤ S204800x128.size a
  hwx0_3 : ∀ i : grid0.Coords, EltTy.bits .f32 = 32 ∨ (Rect.block (s := S204800x128) S4096x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x128.size a ≤ S204800x128.size a
  hwx1_0 : ∀ i : grid1.Coords, EltTy.bits .f32 = 32 ∨ (Rect.block (s := S204800x128) S4096x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x64.size a ≤ S128x64.size a
  hwx1_1 : ∀ i : grid1.Coords, EltTy.bits .f32 = 32 ∨ (Rect.block (s := S128x64) S128x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4096x64.size a ≤ S204800x64.size a
  hwx1_3 : ∀ i : grid1.Coords, EltTy.bits .f32 = 32 ∨ (Rect.block (s := S204800x64) S4096x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1600.size a ≤ S8192x1600.size a
  hwx2_0 : ∀ i : grid2.Coords, EltTy.bits .f32 = 32 ∨ (Rect.block (s := S8192x1600) S1024x1600.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1600x64.size a ≤ S1600x64.size a
  hwx2_1 : ∀ i : grid2.Coords, EltTy.bits .f32 = 32 ∨ (Rect.block (s := S1600x64) S1600x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x64.size a ≤ S8192x64.size a
  hwx2_3 : ∀ i : grid2.Coords, EltTy.bits .f32 = 32 ∨ (Rect.block (s := S8192x64) S1024x64.size (cc2_transform_3 i) (hinb2_3 i)).WholeWords (EltTy.packing .f32)

variable [Facts₀]

def dot_S4096x256_S256x128_S4096x128_1_0_0_1_n_n : DotDims S4096x256 S256x128 S4096x128 where
  lhsContracting := [1]
  rhsContracting := [0]
  lhsNonContracting := [0]
  rhsNonContracting := [1]
  lhsBatch := []
  rhsBatch := []
  wf := dot_S4096x256_S256x128_S4096x128_1_0_0_1_n_n_wf
def dot_S25x256_S256x128_S25x128_1_0_0_1_n_n : DotDims S25x256 S256x128 S25x128 where
  lhsContracting := [1]
  rhsContracting := [0]
  lhsNonContracting := [0]
  rhsNonContracting := [1]
  lhsBatch := []
  rhsBatch := []
  wf := dot_S25x256_S256x128_S25x128_1_0_0_1_n_n_wf
def scatter_S25_S75x1_S75_n_0_0_1 : ScatterDims S25 S75x1 S75 where
  updateWindowDims := []
  insertedWindowDims := [0]
  scatterDimsToOperandDims := [0]
  indexVectorDim := 1
  wf := scatter_S25_S75x1_S75_n_0_0_1_wf
def gather_S25_S75x1_S75_n_0_n_n_0_1_1 : GatherDims S25 S75x1 S75 where
  offsetDims := []
  collapsedSliceDims := [0]
  operandBatchingDims := []
  startIndicesBatchingDims := []
  startIndexMap := [0]
  indexVectorDim := 1
  sliceSizes := ![1]
  wf := gather_S25_S75x1_S75_n_0_n_n_0_1_1_wf
def gather_S25x128_S75x1_S75x128_1_0_n_n_0_1_1128 : GatherDims S25x128 S75x1 S75x128 where
  offsetDims := [1]
  collapsedSliceDims := [0]
  operandBatchingDims := []
  startIndicesBatchingDims := []
  startIndexMap := [0]
  indexVectorDim := 1
  sliceSizes := ![1, 128]
  wf := gather_S25x128_S75x1_S75x128_1_0_n_n_0_1_1128_wf
def scatter_S25x128_S75x1_S75x128_1_0_0_1 : ScatterDims S25x128 S75x1 S75x128 where
  updateWindowDims := [1]
  insertedWindowDims := [0]
  scatterDimsToOperandDims := [0]
  indexVectorDim := 1
  wf := scatter_S25x128_S75x1_S75x128_1_0_0_1_wf
def scatter_S204800x128_S1_S25x128_01_n_0_0 : ScatterDims S204800x128 S1 S25x128 where
  updateWindowDims := [0, 1]
  insertedWindowDims := []
  scatterDimsToOperandDims := [0]
  indexVectorDim := 0
  wf := scatter_S204800x128_S1_S25x128_01_n_0_0_wf
def dot_S4096x128_S128x64_S4096x64_1_0_0_1_n_n : DotDims S4096x128 S128x64 S4096x64 where
  lhsContracting := [1]
  rhsContracting := [0]
  lhsNonContracting := [0]
  rhsNonContracting := [1]
  lhsBatch := []
  rhsBatch := []
  wf := dot_S4096x128_S128x64_S4096x64_1_0_0_1_n_n_wf
def dot_S25x128_S128x64_S25x64_1_0_0_1_n_n : DotDims S25x128 S128x64 S25x64 where
  lhsContracting := [1]
  rhsContracting := [0]
  lhsNonContracting := [0]
  rhsNonContracting := [1]
  lhsBatch := []
  rhsBatch := []
  wf := dot_S25x128_S128x64_S25x64_1_0_0_1_n_n_wf
def gather_S25x64_S75x1_S75x64_1_0_n_n_0_1_164 : GatherDims S25x64 S75x1 S75x64 where
  offsetDims := [1]
  collapsedSliceDims := [0]
  operandBatchingDims := []
  startIndicesBatchingDims := []
  startIndexMap := [0]
  indexVectorDim := 1
  sliceSizes := ![1, 64]
  wf := gather_S25x64_S75x1_S75x64_1_0_n_n_0_1_164_wf
def scatter_S25x64_S75x1_S75x64_1_0_0_1 : ScatterDims S25x64 S75x1 S75x64 where
  updateWindowDims := [1]
  insertedWindowDims := [0]
  scatterDimsToOperandDims := [0]
  indexVectorDim := 1
  wf := scatter_S25x64_S75x1_S75x64_1_0_0_1_wf
def scatter_S204800x64_S1_S25x64_01_n_0_0 : ScatterDims S204800x64 S1 S25x64 where
  updateWindowDims := [0, 1]
  insertedWindowDims := []
  scatterDimsToOperandDims := [0]
  indexVectorDim := 0
  wf := scatter_S204800x64_S1_S25x64_01_n_0_0_wf
def dot_S1024x1600_S1600x64_S1024x64_1_0_0_1_n_n : DotDims S1024x1600 S1600x64 S1024x64 where
  lhsContracting := [1]
  rhsContracting := [0]
  lhsNonContracting := [0]
  rhsNonContracting := [1]
  lhsBatch := []
  rhsBatch := []
  wf := dot_S1024x1600_S1600x64_S1024x64_1_0_0_1_n_n_wf
def dot_S8192x64_S64x1_S8192x1_1_0_0_1_n_n : DotDims S8192x64 S64x1 S8192x1 where
  lhsContracting := [1]
  rhsContracting := [0]
  lhsNonContracting := [0]
  rhsNonContracting := [1]
  lhsBatch := []
  rhsBatch := []
  wf := dot_S8192x64_S64x1_S8192x1_1_0_0_1_n_n_wf

abbrev win0_0 : Pipeline.Window sig grid0 :=
  Pipeline.Window.ofSpec (Memref.whole main_v1) S4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S4096x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v49) S4096x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S128x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v50) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v51) S4096x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v72) S1024x1600.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S1600x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v73) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v74) S1024x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S8192x256x25 : Shape := ⟨3, ![8192, 256, 25]⟩
abbrev S256x128 : Shape := ⟨2, ![256, 128]⟩
abbrev S128 : Shape := ⟨1, ![128]⟩
abbrev S128x64 : Shape := ⟨2, ![128, 64]⟩
abbrev S64 : Shape := ⟨1, ![64]⟩
abbrev S1600x64 : Shape := ⟨2, ![1600, 64]⟩
abbrev S64x1 : Shape := ⟨2, ![64, 1]⟩
abbrev S1 : Shape := ⟨1, ![1]⟩
abbrev S75 : Shape := ⟨1, ![75]⟩
abbrev S8192x25x256 : Shape := ⟨3, ![8192, 25, 256]⟩
abbrev S204800x256 : Shape := ⟨2, ![204800, 256]⟩
abbrev S204800x128 : Shape := ⟨2, ![204800, 128]⟩
abbrev S_ : Shape := ⟨0, ![]⟩
abbrev S25 : Shape := ⟨1, ![25]⟩
abbrev S75x1 : Shape := ⟨2, ![75, 1]⟩
abbrev S75x128 : Shape := ⟨2, ![75, 128]⟩
abbrev S25x128 : Shape := ⟨2, ![25, 128]⟩
abbrev S204775x128 : Shape := ⟨2, ![204775, 128]⟩
abbrev S1x128 : Shape := ⟨2, ![1, 128]⟩
abbrev S204800x64 : Shape := ⟨2, ![204800, 64]⟩
abbrev S75x64 : Shape := ⟨2, ![75, 64]⟩
abbrev S25x64 : Shape := ⟨2, ![25, 64]⟩
abbrev S204775x64 : Shape := ⟨2, ![204775, 64]⟩
abbrev S1x64 : Shape := ⟨2, ![1, 64]⟩
abbrev S8192x1600 : Shape := ⟨2, ![8192, 1600]⟩
abbrev S8192x64 : Shape := ⟨2, ![8192, 64]⟩
abbrev S8192x1 : Shape := ⟨2, ![8192, 1]⟩
abbrev S1x1 : Shape := ⟨2, ![1, 1]⟩
abbrev S8192x1x1 : Shape := ⟨3, ![8192, 1, 1]⟩

abbrev nBuf : Space → Nat
  | .hbm => 139
  | .vmem => 0
  | .smem => 0
  | _ => 0

abbrev hbmTy0_0 (i : Nat) : BufTy := match i % 128 with
  | 0 => ⟨S8192x256x25, .f32⟩
  | 1 => ⟨S256x128, .f32⟩
  | 2 => ⟨S128, .f32⟩
  | 3 => ⟨S128x64, .f32⟩
  | 4 => ⟨S64, .f32⟩
  | 5 => ⟨S1600x64, .f32⟩
  | 6 => ⟨S64, .f32⟩
  | 7 => ⟨S64x1, .f32⟩
  | 8 => ⟨S1, .f32⟩
  | 9 => ⟨S75, .i32⟩
  | 10 => ⟨S75, .i32⟩
  | 11 => ⟨S8192x25x256, .f32⟩
  | 12 => ⟨S204800x256, .f32⟩
  | 13 => ⟨S204800x128, .f32⟩
  | 14 => ⟨S_, .f32⟩
  | 15 => ⟨S25, .f32⟩
  | 16 => ⟨S_, .i32⟩
  | 17 => ⟨S75, .i32⟩
  | 18 => ⟨S75, .i1⟩
  | 19 => ⟨S_, .i32⟩
  | 20 => ⟨S75, .i32⟩
  | 21 => ⟨S75, .i32⟩
  | 22 => ⟨S75, .i32⟩
  | 23 => ⟨S75x1, .i32⟩
  | 24 => ⟨S_, .f32⟩
  | 25 => ⟨S75, .f32⟩
  | 26 => ⟨S25, .f32⟩
  | 27 => ⟨S_, .i32⟩
  | 28 => ⟨S75, .i32⟩
  | 29 => ⟨S75, .i1⟩
  | 30 => ⟨S_, .i32⟩
  | 31 => ⟨S75, .i32⟩
  | 32 => ⟨S75, .i32⟩
  | 33 => ⟨S75, .i32⟩
  | 34 => ⟨S75x1, .i32⟩
  | 35 => ⟨S75, .f32⟩
  | 36 => ⟨S_, .i32⟩
  | 37 => ⟨S75, .i32⟩
  | 38 => ⟨S75, .i1⟩
  | 39 => ⟨S_, .i32⟩
  | 40 => ⟨S75, .i32⟩
  | 41 => ⟨S75, .i32⟩
  | 42 => ⟨S75, .i32⟩
  | 43 => ⟨S75x1, .i32⟩
  | 44 => ⟨S75, .f32⟩
  | 45 => ⟨S75, .f32⟩
  | 46 => ⟨S75, .f32⟩
  | 47 => ⟨S75x1, .f32⟩
  | 48 => ⟨S_, .i32⟩
  | 49 => ⟨S75, .i32⟩
  | 50 => ⟨S75, .i1⟩
  | 51 => ⟨S_, .i32⟩
  | 52 => ⟨S75, .i32⟩
  | 53 => ⟨S75, .i32⟩
  | 54 => ⟨S75, .i32⟩
  | 55 => ⟨S75x1, .i32⟩
  | 56 => ⟨S75x128, .f32⟩
  | 57 => ⟨S75x128, .f32⟩
  | 58 => ⟨S75x128, .f32⟩
  | 59 => ⟨S_, .f32⟩
  | 60 => ⟨S25x128, .f32⟩
  | 61 => ⟨S75x1, .i32⟩
  | 62 => ⟨S25x128, .f32⟩
  | 63 => ⟨S204775x128, .f32⟩
  | 64 => ⟨S204800x128, .f32⟩
  | 65 => ⟨S1x128, .f32⟩
  | 66 => ⟨S204800x128, .f32⟩
  | 67 => ⟨S204800x128, .f32⟩
  | 68 => ⟨S_, .f32⟩
  | 69 => ⟨S204800x128, .f32⟩
  | 70 => ⟨S204800x128, .f32⟩
  | 71 => ⟨S204800x64, .f32⟩
  | 72 => ⟨S_, .f32⟩
  | 73 => ⟨S25, .f32⟩
  | 74 => ⟨S_, .i32⟩
  | 75 => ⟨S75, .i32⟩
  | 76 => ⟨S75, .i1⟩
  | 77 => ⟨S_, .i32⟩
  | 78 => ⟨S75, .i32⟩
  | 79 => ⟨S75, .i32⟩
  | 80 => ⟨S75, .i32⟩
  | 81 => ⟨S75x1, .i32⟩
  | 82 => ⟨S_, .f32⟩
  | 83 => ⟨S75, .f32⟩
  | 84 => ⟨S25, .f32⟩
  | 85 => ⟨S_, .i32⟩
  | 86 => ⟨S75, .i32⟩
  | 87 => ⟨S75, .i1⟩
  | 88 => ⟨S_, .i32⟩
  | 89 => ⟨S75, .i32⟩
  | 90 => ⟨S75, .i32⟩
  | 91 => ⟨S75, .i32⟩
  | 92 => ⟨S75x1, .i32⟩
  | 93 => ⟨S75, .f32⟩
  | 94 => ⟨S_, .i32⟩
  | 95 => ⟨S75, .i32⟩
  | 96 => ⟨S75, .i1⟩
  | 97 => ⟨S_, .i32⟩
  | 98 => ⟨S75, .i32⟩
  | 99 => ⟨S75, .i32⟩
  | 100 => ⟨S75, .i32⟩
  | 101 => ⟨S75x1, .i32⟩
  | 102 => ⟨S75, .f32⟩
  | 103 => ⟨S75, .f32⟩
  | 104 => ⟨S75, .f32⟩
  | 105 => ⟨S75x1, .f32⟩
  | 106 => ⟨S_, .i32⟩
  | 107 => ⟨S75, .i32⟩
  | 108 => ⟨S75, .i1⟩
  | 109 => ⟨S_, .i32⟩
  | 110 => ⟨S75, .i32⟩
  | 111 => ⟨S75, .i32⟩
  | 112 => ⟨S75, .i32⟩
  | 113 => ⟨S75x1, .i32⟩
  | 114 => ⟨S75x64, .f32⟩
  | 115 => ⟨S75x64, .f32⟩
  | 116 => ⟨S75x64, .f32⟩
  | 117 => ⟨S_, .f32⟩
  | 118 => ⟨S25x64, .f32⟩
  | 119 => ⟨S75x1, .i32⟩
  | 120 => ⟨S25x64, .f32⟩
  | 121 => ⟨S204775x64, .f32⟩
  | 122 => ⟨S204800x64, .f32⟩
  | 123 => ⟨S1x64, .f32⟩
  | 124 => ⟨S204800x64, .f32⟩
  | 125 => ⟨S204800x64, .f32⟩
  | 126 => ⟨S8192x1600, .f32⟩
  | 127 => ⟨S8192x64, .f32⟩
  | _ => ⟨S8192x256x25, .f32⟩

abbrev hbmTy0_1 (i : Nat) : BufTy := match i % 128 with
  | 0 => ⟨S1x64, .f32⟩
  | 1 => ⟨S8192x64, .f32⟩
  | 2 => ⟨S8192x64, .f32⟩
  | 3 => ⟨S_, .f32⟩
  | 4 => ⟨S8192x64, .f32⟩
  | 5 => ⟨S8192x64, .f32⟩
  | 6 => ⟨S8192x1, .f32⟩
  | 7 => ⟨S1x1, .f32⟩
  | 8 => ⟨S8192x1, .f32⟩
  | 9 => ⟨S8192x1, .f32⟩
  | 10 => ⟨S8192x1x1, .f32⟩
  | _ => ⟨S8192x256x25, .f32⟩

abbrev hbmTy (i : Nat) : BufTy := match i / 128 with
  | 0 => hbmTy0_0 i
  | 1 => hbmTy0_1 i
  | _ => ⟨S8192x256x25, .f32⟩

abbrev bufTy : (tb : Table) → Fin (tcTables nBuf tb) → BufTy
  | .hbm, ⟨i, _⟩ => hbmTy i
  | _, _ => ⟨S8192x256x25, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_cst : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst_1 : Ref sig .tc := ⟨.hbm, 24, rfl⟩
abbrev main_v10 : Ref sig .tc := ⟨.hbm, 25, rfl⟩
abbrev main_v11 : Ref sig .tc := ⟨.hbm, 26, rfl⟩
abbrev main_c_2 : Ref sig .tc := ⟨.hbm, 27, rfl⟩
abbrev main_v12 : Ref sig .tc := ⟨.hbm, 28, rfl⟩
abbrev main_v13 : Ref sig .tc := ⟨.hbm, 29, rfl⟩
abbrev main_c_3 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_c_4 : Ref sig .tc := ⟨.hbm, 36, rfl⟩
abbrev main_v19 : Ref sig .tc := ⟨.hbm, 37, rfl⟩
abbrev main_v20 : Ref sig .tc := ⟨.hbm, 38, rfl⟩
abbrev main_c_5 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_c_6 : Ref sig .tc := ⟨.hbm, 48, rfl⟩
abbrev main_v29 : Ref sig .tc := ⟨.hbm, 49, rfl⟩
abbrev main_v30 : Ref sig .tc := ⟨.hbm, 50, rfl⟩
abbrev main_c_7 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_8 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_call0_cst : Ref sig .tc := ⟨.hbm, 68, rfl⟩
abbrev main_call0_v0 : Ref sig .tc := ⟨.hbm, 69, rfl⟩
abbrev main_v46 : Ref sig .tc := ⟨.hbm, 70, rfl⟩
abbrev main_v47 : Ref sig .tc := ⟨.hbm, 71, rfl⟩
abbrev main_cst_9 : Ref sig .tc := ⟨.hbm, 72, rfl⟩
abbrev main_v48 : Ref sig .tc := ⟨.hbm, 73, rfl⟩
abbrev main_c_10 : Ref sig .tc := ⟨.hbm, 74, rfl⟩
abbrev main_v49 : Ref sig .tc := ⟨.hbm, 75, rfl⟩
abbrev main_v50 : Ref sig .tc := ⟨.hbm, 76, rfl⟩
abbrev main_c_11 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_cst_12 : Ref sig .tc := ⟨.hbm, 82, rfl⟩
abbrev main_v55 : Ref sig .tc := ⟨.hbm, 83, rfl⟩
abbrev main_v56 : Ref sig .tc := ⟨.hbm, 84, rfl⟩
abbrev main_c_13 : Ref sig .tc := ⟨.hbm, 85, rfl⟩
abbrev main_v57 : Ref sig .tc := ⟨.hbm, 86, rfl⟩
abbrev main_v58 : Ref sig .tc := ⟨.hbm, 87, rfl⟩
abbrev main_c_14 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_c_15 : Ref sig .tc := ⟨.hbm, 94, rfl⟩
abbrev main_v64 : Ref sig .tc := ⟨.hbm, 95, rfl⟩
abbrev main_v65 : Ref sig .tc := ⟨.hbm, 96, rfl⟩
abbrev main_c_16 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_c_17 : Ref sig .tc := ⟨.hbm, 106, rfl⟩
abbrev main_v74 : Ref sig .tc := ⟨.hbm, 107, rfl⟩
abbrev main_v75 : Ref sig .tc := ⟨.hbm, 108, rfl⟩
abbrev main_c_18 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_cst_19 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_call1_cst : Ref sig .tc := ⟨.hbm, 131, rfl⟩
abbrev main_call1_v0 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩

abbrev nD : Nat := 1
abbrev τ : Topo := Topo.v7x

variable {F : FTy → Type} [FloatOps F]

class Facts₀ : Prop where
  transposes_S8192x256x25_S8192x25x256_0_2_1 : S8192x256x25.Transposes [0, 2, 1] S8192x25x256
  shapeCasts_S8192x25x256_S204800x256 : S8192x25x256.ShapeCasts S204800x256
  bcast_S_S25 : S_.BroadcastsInDim S25 (![] : Fin 0 → Fin S25.rank)
  bcast_S_S75 : S_.BroadcastsInDim S75 (![] : Fin 0 → Fin S75.rank)
  bcast_S75_S75x1_0 : S75.BroadcastsInDim S75x1 (![0] : Fin 1 → Fin S75x1.rank)
  bcast_S75x1_S75x128_0_1 : S75x1.BroadcastsInDim S75x128 (![0, 1] : Fin 2 → Fin S75x128.rank)
  bcast_S_S25x128 : S_.BroadcastsInDim S25x128 (![] : Fin 0 → Fin S25x128.rank)
  slices_S204800x128_S204775x128_25_0 : S204800x128.Slices ![25, 0] S204775x128
  concatenates_S25x128_S204775x128_S204800x128_d0 : Shape.Concatenates [S25x128, S204775x128] S204800x128 0
  bcast_S128_S1x128_1 : S128.BroadcastsInDim S1x128 (![1] : Fin 1 → Fin S1x128.rank)
  bcast_S1x128_S204800x128_0_1 : S1x128.BroadcastsInDim S204800x128 (![0, 1] : Fin 2 → Fin S204800x128.rank)
  bcast_S_S204800x128 : S_.BroadcastsInDim S204800x128 (![] : Fin 0 → Fin S204800x128.rank)
  bcast_S75x1_S75x64_0_1 : S75x1.BroadcastsInDim S75x64 (![0, 1] : Fin 2 → Fin S75x64.rank)
  bcast_S_S25x64 : S_.BroadcastsInDim S25x64 (![] : Fin 0 → Fin S25x64.rank)
  slices_S204800x64_S204775x64_25_0 : S204800x64.Slices ![25, 0] S204775x64
  concatenates_S25x64_S204775x64_S204800x64_d0 : Shape.Concatenates [S25x64, S204775x64] S204800x64 0
  bcast_S64_S1x64_1 : S64.BroadcastsInDim S1x64 (![1] : Fin 1 → Fin S1x64.rank)
  bcast_S1x64_S204800x64_0_1 : S1x64.BroadcastsInDim S204800x64 (![0, 1] : Fin 2 → Fin S204800x64.rank)
  shapeCasts_S204800x64_S8192x1600 : S204800x64.ShapeCasts S8192x1600
  bcast_S1x64_S8192x64_0_1 : S1x64.BroadcastsInDim S8192x64 (![0, 1] : Fin 2 → Fin S8192x64.rank)
  bcast_S_S8192x64 : S_.BroadcastsInDim S8192x64 (![] : Fin 0 → Fin S8192x64.rank)
  bcast_S1_S1x1_1 : S1.BroadcastsInDim S1x1 (![1] : Fin 1 → Fin S1x1.rank)
  bcast_S1x1_S8192x1_0_1 : S1x1.BroadcastsInDim S8192x1 (![0, 1] : Fin 2 → Fin S8192x1.rank)
  bcast_S8192x1_S8192x1x1_0_1 : S8192x1.BroadcastsInDim S8192x1x1 (![0, 1] : Fin 2 → Fin S8192x1x1.rank)
  dot_S204800x256_S256x128_S204800x128_1_0_0_1_n_n_wf : DotDims.WF S204800x256 S256x128 S204800x128 [1] [0] [0] [1] [] []
  scatter_S25_S75x1_S75_n_0_0_1_wf : ScatterDims.WF S25 S75x1 S75 [] [0] [0] 1
  gather_S25_S75x1_S75_n_0_n_n_0_1_1_wf : GatherDims.WF S25 S75x1 S75 [] [0] [] [0] [] 1 ![1]
  gather_S204800x128_S75x1_S75x128_1_0_n_n_0_1_1128_wf : GatherDims.WF S204800x128 S75x1 S75x128 [1] [0] [] [0] [] 1 ![1, 128]
  scatter_S25x128_S75x1_S75x128_1_0_0_1_wf : ScatterDims.WF S25x128 S75x1 S75x128 [1] [0] [0] 1
  dot_S204800x128_S128x64_S204800x64_1_0_0_1_n_n_wf : DotDims.WF S204800x128 S128x64 S204800x64 [1] [0] [0] [1] [] []
  gather_S204800x64_S75x1_S75x64_1_0_n_n_0_1_164_wf : GatherDims.WF S204800x64 S75x1 S75x64 [1] [0] [] [0] [] 1 ![1, 64]
  scatter_S25x64_S75x1_S75x64_1_0_0_1_wf : ScatterDims.WF S25x64 S75x1 S75x64 [1] [0] [0] 1
  dot_S8192x1600_S1600x64_S8192x64_1_0_0_1_n_n_wf : DotDims.WF S8192x1600 S1600x64 S8192x64 [1] [0] [0] [1] [] []
  dot_S8192x64_S64x1_S8192x1_1_0_0_1_n_n_wf : DotDims.WF S8192x64 S64x1 S8192x1 [1] [0] [0] [1] [] []

variable [Facts₀]

def dot_S204800x256_S256x128_S204800x128_1_0_0_1_n_n : DotDims S204800x256 S256x128 S204800x128 where
  lhsContracting := [1]
  rhsContracting := [0]
  lhsNonContracting := [0]
  rhsNonContracting := [1]
  lhsBatch := []
  rhsBatch := []
  wf := dot_S204800x256_S256x128_S204800x128_1_0_0_1_n_n_wf
def scatter_S25_S75x1_S75_n_0_0_1 : ScatterDims S25 S75x1 S75 where
  updateWindowDims := []
  insertedWindowDims := [0]
  scatterDimsToOperandDims := [0]
  indexVectorDim := 1
  wf := scatter_S25_S75x1_S75_n_0_0_1_wf
def gather_S25_S75x1_S75_n_0_n_n_0_1_1 : GatherDims S25 S75x1 S75 where
  offsetDims := []
  collapsedSliceDims := [0]
  operandBatchingDims := []
  startIndicesBatchingDims := []
  startIndexMap := [0]
  indexVectorDim := 1
  sliceSizes := ![1]
  wf := gather_S25_S75x1_S75_n_0_n_n_0_1_1_wf
def gather_S204800x128_S75x1_S75x128_1_0_n_n_0_1_1128 : GatherDims S204800x128 S75x1 S75x128 where
  offsetDims := [1]
  collapsedSliceDims := [0]
  operandBatchingDims := []
  startIndicesBatchingDims := []
  startIndexMap := [0]
  indexVectorDim := 1
  sliceSizes := ![1, 128]
  wf := gather_S204800x128_S75x1_S75x128_1_0_n_n_0_1_1128_wf
def scatter_S25x128_S75x1_S75x128_1_0_0_1 : ScatterDims S25x128 S75x1 S75x128 where
  updateWindowDims := [1]
  insertedWindowDims := [0]
  scatterDimsToOperandDims := [0]
  indexVectorDim := 1
  wf := scatter_S25x128_S75x1_S75x128_1_0_0_1_wf
def dot_S204800x128_S128x64_S204800x64_1_0_0_1_n_n : DotDims S204800x128 S128x64 S204800x64 where
  lhsContracting := [1]
  rhsContracting := [0]
  lhsNonContracting := [0]
  rhsNonContracting := [1]
  lhsBatch := []
  rhsBatch := []
  wf := dot_S204800x128_S128x64_S204800x64_1_0_0_1_n_n_wf
def gather_S204800x64_S75x1_S75x64_1_0_n_n_0_1_164 : GatherDims S204800x64 S75x1 S75x64 where
  offsetDims := [1]
  collapsedSliceDims := [0]
  operandBatchingDims := []
  startIndicesBatchingDims := []
  startIndexMap := [0]
  indexVectorDim := 1
  sliceSizes := ![1, 64]
  wf := gather_S204800x64_S75x1_S75x64_1_0_n_n_0_1_164_wf
def scatter_S25x64_S75x1_S75x64_1_0_0_1 : ScatterDims S25x64 S75x1 S75x64 where
  updateWindowDims := [1]
  insertedWindowDims := [0]
  scatterDimsToOperandDims := [0]
  indexVectorDim := 1
  wf := scatter_S25x64_S75x1_S75x64_1_0_0_1_wf
def dot_S8192x1600_S1600x64_S8192x64_1_0_0_1_n_n : DotDims S8192x1600 S1600x64 S8192x64 where
  lhsContracting := [1]
  rhsContracting := [0]
  lhsNonContracting := [0]
  rhsNonContracting := [1]
  lhsBatch := []
  rhsBatch := []
  wf := dot_S8192x1600_S1600x64_S8192x64_1_0_0_1_n_n_wf
def dot_S8192x64_S64x1_S8192x1_1_0_0_1_n_n : DotDims S8192x64 S64x1 S8192x1 where
  lhsContracting := [1]
  rhsContracting := [0]
  lhsNonContracting := [0]
  rhsNonContracting := [1]
  lhsBatch := []
  rhsBatch := []
  wf := dot_S8192x64_S64x1_S8192x1_1_0_0_1_n_n_wf

class Facts : Prop extends Facts₀ where

variable [Facts]
-- ==== Proof.PreDecode.lean ====
import proofs.«133155_j46127948759115_1_alg».proof.Pre_finite_inputs
import proofs.«133155_j46127948759115_1_alg».proof.Proof.Gen.Pre_finite_inputs
import Idealize.ShloMosaic.Lib.ReduceAll
import Idealize.ShloMosaic.Lib.Affine
import Idealize.ShloMosaic.Lib.ValueIdx
import Idealize.ShloMosaic.PureOps.Ideal

/-!
  What the precondition says of the edge sources: its last conjunct is the conjunction, over the 75 edges, of
  "the source word is at least 0 and below 25", so every source word names one of the 25 graph nodes.
-/

noncomputable section

namespace Cert.Pre_finite_inputs.Hand

open Cert.Pre_finite_inputs Idealize.ShloMosaic Idealize.ShloMosaic.ValueIdx

instance : Subsingleton S_.Idx := ⟨fun a b => funext fun d => d.elim0⟩

/-- Every edge's source word, read signed, lies in [0, 25). -/
theorem src_range [Facts] {F : FTy → Type} [FloatOps F]
    (x0 : FVec F S8192x256x25 .f32) (x1 : FVec F S256x128 .f32) (x2 : FVec F S128 .f32) (x3 : FVec F S128x64 .f32)
    (x4 : FVec F S64 .f32) (x5 : FVec F S1600x64 .f32) (x6 : FVec F S64 .f32) (x7 : FVec F S64x1 .f32) (x8 : FVec F S1 .f32)
    (x9 x10 : IVec S75 32)
    (h : fn (F := F) x0 x1 x2 x3 x4 x5 x6 x7 x8 x9 x10 = fun _ => 1#1) (e : Fin 75) :
    0 ≤ (x9 (ix1 e)).toInt ∧ (x9 (ix1 e)).toInt < 25 := by
  have h0 := congrFun h ix0
  dsimp only [fn, fn_part1, fn_part2] at h0
  have h49 := (IntOp.andi_eq_one.mp h0).2
  have h48 := Host.reduce_andi_all _ _ _ _ _ h49 (ix1 e)
  obtain ⟨hge, hlt⟩ := IntOp.andi_eq_one.mp h48
  have hge' : (0#32 : BitVec 32).toInt ≤ (x9 (ix1 e)).toInt := IntOp.cmpi_sge.mp hge
  have hlt' : (x9 (ix1 e)).toInt < (25#32 : BitVec 32).toInt := IntOp.cmpi_slt.mp hlt
  have e0 : (0#32 : BitVec 32).toInt = 0 := by decide
  have e25 : (25#32 : BitVec 32).toInt = 25 := by decide
  rw [e0] at hge'
  rw [e25] at hlt'
  exact ⟨hge', hlt'⟩

end Cert.Pre_finite_inputs.Hand

end
-- ==== Proof.KChain.lean ====
import proofs.«133155_j46127948759115_1_alg».proof.Proof.Gen.KernelIdeal.Frame
import Idealize.ShloMosaic.Lib.StableHlo.Run
import Idealize.ShloMosaic.PureOps.Ideal

/-!
  The idealized kernel program between its three regions: which buffers each stretch of host operations and each
  region leaves as it found them, and what the short stretches compute. The contents at the boundaries are the folds
  W0 … W9 of the frame: W1 at the first region's entry, W2 at its exit, W5 at the second region's entry, W6 at its exit,
  W7 at the third region's entry, W8 at its exit, W9 at the return.
-/

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-- A buffer no operation of a stretch writes holds after the stretch what it held before. -/
macro "kept_host" : tactic => `(tactic|
  exact StableHlo.after_of_forall_not_mem _ _ (List.forall_iff_forall_mem.mp (by
    simp only [hostOps0, hostOps1, hostOps1_1, hostOps1_2, hostOps2, hostOps3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))))

/-! ## Entering the first region -/

theorem W1_v1 (c : Dev nD) : (W1 m ρ c (Proc.devRef .tc main_v1) : FVec F S204800x256 .f32)
    = shapeCast S204800x256 (transpose S8192x25x256 [0, 2, 1] (m ((c : Thread nD τ).loc main_arg0)) transposes_S8192x256x25_S8192x25x256_0_2_1) shapeCasts_S8192x25x256_S204800x256 := by
  show StableHlo.after hostOps0 _ _ = _
  after_results
  rfl

theorem W1_v2 (c : Dev nD) : (W1 m ρ c (Proc.devRef .tc main_v2) : FVec F S1x128 .f32)
    = shapeCast S1x128 (m ((c : Thread nD τ).loc main_arg2)) shapeCasts_S128_S1x128 := by
  show StableHlo.after hostOps0 _ _ = _
  after_results
  rfl

section Args
variable (c : Dev nD)

theorem W1_arg1 : W1 m ρ c (Proc.devRef .tc main_arg1) = m ((c : Thread nD τ).loc main_arg1) := (show _ = W0 m ρ c _ by kept_host).trans rfl
theorem W1_arg2 : W1 m ρ c (Proc.devRef .tc main_arg2) = m ((c : Thread nD τ).loc main_arg2) := (show _ = W0 m ρ c _ by kept_host).trans rfl
theorem W1_arg3 : W1 m ρ c (Proc.devRef .tc main_arg3) = m ((c : Thread nD τ).loc main_arg3) := (show _ = W0 m ρ c _ by kept_host).trans rfl
theorem W1_arg4 : W1 m ρ c (Proc.devRef .tc main_arg4) = m ((c : Thread nD τ).loc main_arg4) := (show _ = W0 m ρ c _ by kept_host).trans rfl
theorem W1_arg5 : W1 m ρ c (Proc.devRef .tc main_arg5) = m ((c : Thread nD τ).loc main_arg5) := (show _ = W0 m ρ c _ by kept_host).trans rfl
theorem W1_arg6 : W1 m ρ c (Proc.devRef .tc main_arg6) = m ((c : Thread nD τ).loc main_arg6) := (show _ = W0 m ρ c _ by kept_host).trans rfl
theorem W1_arg7 : W1 m ρ c (Proc.devRef .tc main_arg7) = m ((c : Thread nD τ).loc main_arg7) := (show _ = W0 m ρ c _ by kept_host).trans rfl
theorem W1_arg8 : W1 m ρ c (Proc.devRef .tc main_arg8) = m ((c : Thread nD τ).loc main_arg8) := (show _ = W0 m ρ c _ by kept_host).trans rfl
theorem W1_arg9 : W1 m ρ c (Proc.devRef .tc main_arg9) = m ((c : Thread nD τ).loc main_arg9) := (show _ = W0 m ρ c _ by kept_host).trans rfl
theorem W1_arg10 : W1 m ρ c (Proc.devRef .tc main_arg10) = m ((c : Thread nD τ).loc main_arg10) := (show _ = W0 m ρ c _ by kept_host).trans rfl

/-! ## Leaving the first region: its output at what the write-backs leave, its inputs and every other buffer as entered -/

theorem W2_v3 : W2 m ρ c (Proc.devRef .tc main_v3) = (dat0 (V1 m ρ) c).arrAt 3 cfg0.N := W2_arr m ρ c 3
theorem W2_v1 : W2 m ρ c (Proc.devRef .tc main_v1) = W1 m ρ c (Proc.devRef .tc main_v1) :=
  (W2_arr m ρ c 0).trans (((dat0 (V1 m ρ) c).arrAt_in 0 rfl _).trans (A_eq0 (V1 m ρ) c 0))
theorem W2_arg1 : W2 m ρ c (Proc.devRef .tc main_arg1) = m ((c : Thread nD τ).loc main_arg1) :=
  ((W2_arr m ρ c 1).trans (((dat0 (V1 m ρ) c).arrAt_in 1 rfl _).trans (A_eq0 (V1 m ρ) c 1))).trans (W1_arg1 m ρ c)
theorem W2_arg2 : W2 m ρ c (Proc.devRef .tc main_arg2) = m ((c : Thread nD τ).loc main_arg2) := (W2_of_ne m ρ c main_arg2 (by decide)).trans (W1_arg2 m ρ c)
theorem W2_arg3 : W2 m ρ c (Proc.devRef .tc main_arg3) = m ((c : Thread nD τ).loc main_arg3) := (W2_of_ne m ρ c main_arg3 (by decide)).trans (W1_arg3 m ρ c)
theorem W2_arg4 : W2 m ρ c (Proc.devRef .tc main_arg4) = m ((c : Thread nD τ).loc main_arg4) := (W2_of_ne m ρ c main_arg4 (by decide)).trans (W1_arg4 m ρ c)
theorem W2_arg5 : W2 m ρ c (Proc.devRef .tc main_arg5) = m ((c : Thread nD τ).loc main_arg5) := (W2_of_ne m ρ c main_arg5 (by decide)).trans (W1_arg5 m ρ c)
theorem W2_arg6 : W2 m ρ c (Proc.devRef .tc main_arg6) = m ((c : Thread nD τ).loc main_arg6) := (W2_of_ne m ρ c main_arg6 (by decide)).trans (W1_arg6 m ρ c)
theorem W2_arg7 : W2 m ρ c (Proc.devRef .tc main_arg7) = m ((c : Thread nD τ).loc main_arg7) := (W2_of_ne m ρ c main_arg7 (by decide)).trans (W1_arg7 m ρ c)
theorem W2_arg8 : W2 m ρ c (Proc.devRef .tc main_arg8) = m ((c : Thread nD τ).loc main_arg8) := (W2_of_ne m ρ c main_arg8 (by decide)).trans (W1_arg8 m ρ c)
theorem W2_arg9 : W2 m ρ c (Proc.devRef .tc main_arg9) = m ((c : Thread nD τ).loc main_arg9) := (W2_of_ne m ρ c main_arg9 (by decide)).trans (W1_arg9 m ρ c)
theorem W2_arg10 : W2 m ρ c (Proc.devRef .tc main_arg10) = m ((c : Thread nD τ).loc main_arg10) := (W2_of_ne m ρ c main_arg10 (by decide)).trans (W1_arg10 m ρ c)

/-! ## Through the three stretches up to the second region's entry -/

theorem W5_of_W2 (b : Ref sig .tc)
    (h1 : StableHlo.after hostOps1 (W2 m ρ c) (Proc.devRef .tc b) = W2 m ρ c (Proc.devRef .tc b))
    (h2 : StableHlo.after hostOps1_1 (W3 m ρ c) (Proc.devRef .tc b) = W3 m ρ c (Proc.devRef .tc b))
    (h3 : StableHlo.after hostOps1_2 (W4 m ρ c) (Proc.devRef .tc b) = W4 m ρ c (Proc.devRef .tc b)) :
    W5 m ρ c (Proc.devRef .tc b) = W2 m ρ c (Proc.devRef .tc b) := h3.trans (h2.trans h1)

theorem W5_arg3 : W5 m ρ c (Proc.devRef .tc main_arg3) = m ((c : Thread nD τ).loc main_arg3) := (W5_of_W2 m ρ c main_arg3 (by kept_host) (by kept_host) (by kept_host)).trans (W2_arg3 m ρ c)
theorem W5_arg4 : W5 m ρ c (Proc.devRef .tc main_arg4) = m ((c : Thread nD τ).loc main_arg4) := (W5_of_W2 m ρ c main_arg4 (by kept_host) (by kept_host) (by kept_host)).trans (W2_arg4 m ρ c)
theorem W5_arg5 : W5 m ρ c (Proc.devRef .tc main_arg5) = m ((c : Thread nD τ).loc main_arg5) := (W5_of_W2 m ρ c main_arg5 (by kept_host) (by kept_host) (by kept_host)).trans (W2_arg5 m ρ c)
theorem W5_arg6 : W5 m ρ c (Proc.devRef .tc main_arg6) = m ((c : Thread nD τ).loc main_arg6) := (W5_of_W2 m ρ c main_arg6 (by kept_host) (by kept_host) (by kept_host)).trans (W2_arg6 m ρ c)
theorem W5_arg7 : W5 m ρ c (Proc.devRef .tc main_arg7) = m ((c : Thread nD τ).loc main_arg7) := (W5_of_W2 m ρ c main_arg7 (by kept_host) (by kept_host) (by kept_host)).trans (W2_arg7 m ρ c)
theorem W5_arg8 : W5 m ρ c (Proc.devRef .tc main_arg8) = m ((c : Thread nD τ).loc main_arg8) := (W5_of_W2 m ρ c main_arg8 (by kept_host) (by kept_host) (by kept_host)).trans (W2_arg8 m ρ c)
theorem W5_arg9 : W5 m ρ c (Proc.devRef .tc main_arg9) = m ((c : Thread nD τ).loc main_arg9) := (W5_of_W2 m ρ c main_arg9 (by kept_host) (by kept_host) (by kept_host)).trans (W2_arg9 m ρ c)
theorem W5_arg10 : W5 m ρ c (Proc.devRef .tc main_arg10) = m ((c : Thread nD τ).loc main_arg10) := (W5_of_W2 m ρ c main_arg10 (by kept_host) (by kept_host) (by kept_host)).trans (W2_arg10 m ρ c)
/-- The first region's output is not touched before the row update that reads it. -/
theorem W4_v3 : W4 m ρ c (Proc.devRef .tc main_v3) = W2 m ρ c (Proc.devRef .tc main_v3) :=
  (show _ = W3 m ρ c _ by kept_host).trans (show _ = W2 m ρ c _ by kept_host)
/-- The edge weights, computed in the first stretch, are still there when the second layer reads them. -/
theorem W5_v30 : W5 m ρ c (Proc.devRef .tc main_v30) = W3 m ρ c (Proc.devRef .tc main_v30) :=
  (show _ = W4 m ρ c _ by kept_host).trans (show _ = W3 m ρ c _ by kept_host)

/-! ## Leaving the second region -/

theorem W6_v51 : W6 m ρ c (Proc.devRef .tc main_v51) = (dat1 (V5 m ρ) c).arrAt 3 cfg1.N := W6_arr m ρ c 3
theorem W6_v49 : W6 m ρ c (Proc.devRef .tc main_v49) = W5 m ρ c (Proc.devRef .tc main_v49) :=
  (W6_arr m ρ c 0).trans (((dat1 (V5 m ρ) c).arrAt_in 0 rfl _).trans (A_eq1 (V5 m ρ) c 0))
theorem W6_arg3 : W6 m ρ c (Proc.devRef .tc main_arg3) = m ((c : Thread nD τ).loc main_arg3) :=
  ((W6_arr m ρ c 1).trans (((dat1 (V5 m ρ) c).arrAt_in 1 rfl _).trans (A_eq1 (V5 m ρ) c 1))).trans (W5_arg3 m ρ c)
theorem W6_v30 : W6 m ρ c (Proc.devRef .tc main_v30) = W3 m ρ c (Proc.devRef .tc main_v30) := (W6_of_ne m ρ c main_v30 (by decide)).trans (W5_v30 m ρ c)
theorem W6_arg4 : W6 m ρ c (Proc.devRef .tc main_arg4) = m ((c : Thread nD τ).loc main_arg4) := (W6_of_ne m ρ c main_arg4 (by decide)).trans (W5_arg4 m ρ c)
theorem W6_arg5 : W6 m ρ c (Proc.devRef .tc main_arg5) = m ((c : Thread nD τ).loc main_arg5) := (W6_of_ne m ρ c main_arg5 (by decide)).trans (W5_arg5 m ρ c)
theorem W6_arg6 : W6 m ρ c (Proc.devRef .tc main_arg6) = m ((c : Thread nD τ).loc main_arg6) := (W6_of_ne m ρ c main_arg6 (by decide)).trans (W5_arg6 m ρ c)
theorem W6_arg7 : W6 m ρ c (Proc.devRef .tc main_arg7) = m ((c : Thread nD τ).loc main_arg7) := (W6_of_ne m ρ c main_arg7 (by decide)).trans (W5_arg7 m ρ c)
theorem W6_arg8 : W6 m ρ c (Proc.devRef .tc main_arg8) = m ((c : Thread nD τ).loc main_arg8) := (W6_of_ne m ρ c main_arg8 (by decide)).trans (W5_arg8 m ρ c)
theorem W6_arg9 : W6 m ρ c (Proc.devRef .tc main_arg9) = m ((c : Thread nD τ).loc main_arg9) := (W6_of_ne m ρ c main_arg9 (by decide)).trans (W5_arg9 m ρ c)
theorem W6_arg10 : W6 m ρ c (Proc.devRef .tc main_arg10) = m ((c : Thread nD τ).loc main_arg10) := (W6_of_ne m ρ c main_arg10 (by decide)).trans (W5_arg10 m ρ c)

/-! ## To the third region and out of it -/

theorem W7_arg5 : W7 m ρ c (Proc.devRef .tc main_arg5) = m ((c : Thread nD τ).loc main_arg5) := (show _ = W6 m ρ c _ by kept_host).trans (W6_arg5 m ρ c)
theorem W7_arg7 : W7 m ρ c (Proc.devRef .tc main_arg7) = m ((c : Thread nD τ).loc main_arg7) := (show _ = W6 m ρ c _ by kept_host).trans (W6_arg7 m ρ c)
theorem W7_arg8 : W7 m ρ c (Proc.devRef .tc main_arg8) = m ((c : Thread nD τ).loc main_arg8) := (show _ = W6 m ρ c _ by kept_host).trans (W6_arg8 m ρ c)
theorem W8_v74 : W8 m ρ c (Proc.devRef .tc main_v74) = (dat2 (V7 m ρ) c).arrAt 3 cfg2.N := W8_arr m ρ c 3
theorem W8_arg7 : W8 m ρ c (Proc.devRef .tc main_arg7) = m ((c : Thread nD τ).loc main_arg7) := (W8_of_ne m ρ c main_arg7 (by decide)).trans (W7_arg7 m ρ c)
theorem W8_arg8 : W8 m ρ c (Proc.devRef .tc main_arg8) = m ((c : Thread nD τ).loc main_arg8) := (W8_of_ne m ρ c main_arg8 (by decide)).trans (W7_arg8 m ρ c)

end Args

/-! ## The short stretches, from any contents -/

section Short
variable (w : Valuation τ sig (Elt F))

/-- The corrected rows are cut off at zero … -/
theorem ops_v47 : (StableHlo.after hostOps1_1 w (Proc.devRef .tc main_v47) : FVec F S25x128 .f32)
    = maximumf (w (Proc.devRef .tc main_v46)) (broadcastInDim S25x128 ![] bcast_S_S25x128 (constant S_ .f32 0x00000000#32)) := by
  after_results_simp <;> rfl
/-- … and written over the first 25 rows of the first region's output. -/
theorem ops_v49 : (StableHlo.after hostOps1_2 w (Proc.devRef .tc main_v49) : FVec F S204800x128 .f32)
    = Host.scatter scatter_S204800x128_S1_S25x128_01_n_0_0 (fun _ u => u) (w (Proc.devRef .tc main_v3))
        (broadcastInDim S1 ![] bcast_S_S1 (constantI S_ 32 0#32)) (w (Proc.devRef .tc main_v47)) := by
  after_results_simp <;> rfl
/-- The second bias as a row. -/
theorem ops_v50 : (StableHlo.after hostOps1_2 w (Proc.devRef .tc main_v50) : FVec F S1x64 .f32)
    = shapeCast S1x64 (w (Proc.devRef .tc main_arg4)) shapeCasts_S64_S1x64 := by
  after_results_simp <;> rfl
/-- The last projection and its bias. -/
theorem ops_v79 : (StableHlo.after hostOps3 w (Proc.devRef .tc main_v79) : FVec F S8192x1x1 .f32)
    = broadcastInDim S8192x1x1 ![0, 1] bcast_S8192x1_S8192x1x1_0_1
        (addf (Host.dotGeneral dot_S8192x64_S64x1_S8192x1_1_0_0_1_n_n none (w (Proc.devRef .tc main_v74)) (w (Proc.devRef .tc main_arg7)))
          (broadcastInDim S8192x1 ![0, 1] bcast_S1x1_S8192x1_0_1 (broadcastInDim S1x1 ![1] bcast_S1_S1x1_1 (w (Proc.devRef .tc main_arg8))))) := by
  after_results_simp <;> rfl

end Short

end Cert.KernelIdeal.Hand

end
-- ==== Proof.Region0.lean ====
import proofs.«133155_j46127948759115_1_alg».proof.Proof.Gen.KernelIdeal.Frame
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StackMember

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The three input arrays of the region as it finds them, at their literal types. -/
abbrev lhs0 (c : Dev nD) : FVec Ideal S204800x256 .f32 := V c (Pipeline.arrRef spec0 0)
abbrev rhs0 (c : Dev nD) : FVec Ideal S256x128 .f32 := V c (Pipeline.arrRef spec0 1)
abbrev bias0 (c : Dev nD) : FVec Ideal S1x128 .f32 := V c (Pipeline.arrRef spec0 2)
/-- The output array after the region's last write-back. -/
abbrev res0 (c : Dev nD) : FVec Ideal S204800x128 .f32 := (dat0 (F := Ideal) V c).arrAt 3 cfg0.N

/-! ## The whole-array function -/

/-- Row p of a 204800×256 matrix against column q of a 256×128 matrix, plus entry q of a bias row, cut off below at zero. -/
def rowCol0 (L : FVec Ideal S204800x256 .f32) (R : FVec Ideal S256x128 .f32) (B : FVec Ideal S1x128 .f32)
    (p : Fin 204800) (q : Fin 128) : EReal :=
  max ((∑ k : Fin 256, L (ix2 p k) * R (ix2 k q)) + B (ix2 0 q)) 0

/-- The same as one array: the matrix product plus the bias row on every row, cut off below at zero. -/
def affineRelu0 (L : FVec Ideal S204800x256 .f32) (R : FVec Ideal S256x128 .f32) (B : FVec Ideal S1x128 .f32) :
    FVec Ideal S204800x128 .f32 :=
  fun i => rowCol0 L R B (i 0) (i 1)

theorem affineRelu0_apply (L : FVec Ideal S204800x256 .f32) (R : FVec Ideal S256x128 .f32) (B : FVec Ideal S1x128 .f32)
    (p : Fin 204800) (q : Fin 128) :
    affineRelu0 L R B (ix2 p q) = max ((∑ k : Fin 256, L (ix2 p k) * R (ix2 k q)) + B (ix2 0 q)) 0 := rfl

/-! ## The body's stored value at an entry -/

/-- The product of a 4096×256 block by the 256×128 matrix into a zero accumulator, entry by entry. -/
theorem mm0_apply (l : FVec Ideal S4096x256 .bf16) (r : FVec Ideal S256x128 .bf16) (a : Fin 4096) (b : Fin 128) :
    matmul dot_S4096x256_S256x128_S4096x128_1_0_0_1_n_n none l r (constant S4096x128 .f32 0x00000000#32) (ix2 a b)
      = ∑ k : Fin 256, l (ix2 a k) * r (ix2 k b) := by
  rw [← StackMember.dotGeneral_plain_apply (m := 4096) (n := 128) none l r a b]
  show FloatOps.matmul _ none l r _ (ix2 a b) = FloatOps.dotGeneral _ none _ l r (ix2 a b)
  rw [Ideal.matmul_constant_zero_apply, Ideal.dotGeneral_apply]
  rfl

/-- The body's stored value at entry (a, b) of its block: on the extended reals the narrowing of the operands changes
    nothing, and the accumulator is zero. -/
theorem pay0_apply (x0 : Vec Ideal S4096x256 .f32) (x1 : Vec Ideal S256x128 .f32) (x2 : Vec Ideal S1x128 .f32)
    (a : Fin 4096) (b : Fin 128) :
    k0_pay1 x0 x1 x2 (ix2 a b) = max ((∑ k : Fin 256, x0 (ix2 a k) * x1 (ix2 k b)) + x2 (ix2 0 b)) 0 := by
  unfold k0_pay1
  rw [maximumf_apply, addf_apply, broadcast_apply, mm0_apply, broadcastTo_1b_ab_apply, shapeCast_self, shapeCast_self]
  simp only [truncf_apply]
  show max _ (Ideal.ofBits .f32 0x00000000#32) = _
  rw [Ideal.ofBits_zero_f32]

/-- A block whose rows are rows s·4096 … s·4096 + 4095 of L, against the whole of R and B, holds at each of its
    entries the whole-array function at the entry's place in the array. -/
theorem pay0_eq_of_rows (L : FVec Ideal S204800x256 .f32) (R : FVec Ideal S256x128 .f32) (B : FVec Ideal S1x128 .f32)
    (x0 : Vec Ideal S4096x256 .f32) (x1 : Vec Ideal S256x128 .f32) (x2 : Vec Ideal S1x128 .f32) (s : Nat)
    (h0 : ∀ (a : Fin 4096) (k : Fin 256) (p : Fin 204800), p.val = s * 4096 + a.val → x0 (ix2 a k) = L (ix2 p k))
    (h1 : ∀ (k : Fin 256) (b : Fin 128), x1 (ix2 k b) = R (ix2 k b))
    (h2 : ∀ b : Fin 128, x2 (ix2 0 b) = B (ix2 0 b))
    (y : S4096x128.Idx) (i : S204800x128.Idx) (hi0 : (i 0).val = s * 4096 + (y 0).val) (hi1 : (i 1).val = (y 1).val) :
    k0_pay1 x0 x1 x2 y = affineRelu0 L R B i := by
  obtain ⟨a, b, rfl⟩ : ∃ (a : Fin 4096) (b : Fin 128), y = ix2 a b := ⟨y 0, y 1, eq_ix2 y⟩
  obtain ⟨p, q, rfl⟩ : ∃ (p : Fin 204800) (q : Fin 128), i = ix2 p q := ⟨i 0, i 1, eq_ix2 i⟩
  have hq : q = b := Fin.ext hi1
  subst hq
  rw [pay0_apply, affineRelu0_apply, h2]
  congr 2
  exact Finset.sum_congr rfl fun k _ => by rw [h0 a k p hi0, h1]

/-! ## The index maps, decided over the grid -/

theorem hz0 : (![0, 0] : Fin 2 → Nat) = fun _ => 0 := funext fun a => by fin_cases a <;> rfl

/-- Windows 0 and 3 take row block t at point t; windows 1 and 2 stay on their one block. -/
theorem idx0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-! ## The input blocks as rows of their arrays -/

theorem lhs0_blk (c : Dev nD) (t : Fin cfg0.N) (a : Fin 4096) (k : Fin 256) (p : Fin 204800)
    (hp : p.val = t.val * 4096 + a.val) :
    (iblk0 V c 0 t : Vec Ideal S4096x256 .f32) (ix2 a k) = lhs0 V c (ix2 p k) := by
  obtain ⟨e0, e1, -⟩ := idx0 t
  show V c (Pipeline.arrRef spec0 0) (((cfg0.win 0).blk t).view.emb (ix2 a k)) = V c (Pipeline.arrRef spec0 0) (ix2 p k)
  congr 1
  funext ax; apply Fin.ext
  match ax with
  | ⟨0, _⟩ => show win0_0.index t (0 : Fin 2) * 4096 + 1 * a.val = p.val; omega
  | ⟨1, _⟩ => show win0_0.index t (1 : Fin 2) * 256 + 1 * k.val = k.val; omega

theorem rhs0_blk (c : Dev nD) (t : Fin cfg0.N) (k : Fin 256) (b : Fin 128) :
    (iblk0 V c 1 t : Vec Ideal S256x128 .f32) (ix2 k b) = rhs0 V c (ix2 k b) := by
  obtain ⟨-, -, e0, e1, -⟩ := idx0 t
  show V c (Pipeline.arrRef spec0 1) (((cfg0.win 1).blk t).view.emb (ix2 k b)) = V c (Pipeline.arrRef spec0 1) (ix2 k b)
  congr 1
  funext ax; apply Fin.ext
  match ax with
  | ⟨0, _⟩ => show win0_1.index t (0 : Fin 2) * 256 + 1 * k.val = k.val; omega
  | ⟨1, _⟩ => show win0_1.index t (1 : Fin 2) * 128 + 1 * b.val = b.val; omega

theorem bias0_blk (c : Dev nD) (t : Fin cfg0.N) (b : Fin 128) :
    (iblk0 V c 2 t : Vec Ideal S1x128 .f32) (ix2 0 b) = bias0 V c (ix2 0 b) := by
  obtain ⟨-, -, -, -, e0, e1, -⟩ := idx0 t
  show V c (Pipeline.arrRef spec0 2) (((cfg0.win 2).blk t).view.emb (ix2 0 b)) = V c (Pipeline.arrRef spec0 2) (ix2 0 b)
  congr 1
  funext ax; apply Fin.ext
  match ax with
  | ⟨0, _⟩ => show win0_2.index t (0 : Fin 2) * 1 + 1 * 0 = 0; omega
  | ⟨1, _⟩ => show win0_2.index t (1 : Fin 2) * 128 + 1 * b.val = b.val; omega

/-! ## What a point writes back -/

/-- Point t writes back block t of the whole-array function of the three arrays. -/
theorem flushed0_eq (c : Dev nD) (t : Fin cfg0.N) :
    (dat0 V c).flushed 3 t
      = ((cfg0.win 3).blk t).view.read (Elt Ideal) (affineRelu0 (lhs0 V c) (rhs0 V c) (bias0 V c)) := by
  show (cfg0.win 3).cut (grid0.coords t) ((dat0 V c).after 3 t) = _
  rw [after0_3]
  unfold out0_3
  rw [View.canon_unit_zero hz0]
  simp only [View.ld_unit_zero (S := S4096x256) hz0, View.ld_unit_zero (S := S256x128) hz0, View.ld_unit_zero (S := S1x128) hz0]
  obtain ⟨-, -, -, -, -, -, e0, e1⟩ := idx0 t
  funext j
  show k0_pay1 (iblk0 V c 0 t) (iblk0 V c 1 t) (iblk0 V c 2 t) j
    = affineRelu0 (lhs0 V c) (rhs0 V c) (bias0 V c) (((cfg0.win 3).blk t).view.emb j)
  refine pay0_eq_of_rows (lhs0 V c) (rhs0 V c) (bias0 V c) (iblk0 V c 0 t) (iblk0 V c 1 t) (iblk0 V c 2 t) t.val
    (fun a k p hp => lhs0_blk V c t a k p hp) (fun k b => rhs0_blk V c t k b) (fun b => bias0_blk V c t b) j _ ?_ ?_
  · show win0_3.index t (0 : Fin 2) * 4096 + 1 * (j 0).val = t.val * 4096 + (j 0).val; omega
  · show win0_3.index t (1 : Fin 2) * 128 + 1 * (j 1).val = (j 1).val; omega

/-! ## The cover -/

/-- An index of the array is in point t's block iff each coordinate is in the block's range on its axis. -/
theorem mem_blk0 (t : Fin cfg0.N) (i : S204800x128.Idx) :
    i ∈ ((cfg0.win 3).blk t).view.set ↔ ∀ a : Fin 2, win0_3.index t a * S4096x128.size a ≤ (i a).val ∧ (i a).val < win0_3.index t a * S4096x128.size a + S4096x128.size a := by
  show i ∈ ((View.whole main_v3).slice (win0_3.rect t)).set ↔ _
  rw [View.set_slice_whole, Rect.mem_set_unit]
  exact Iff.rfl

/-- Every row of the array lies in the block of the point numbered by the row divided by the block's height. -/
theorem cover0 (i : S204800x128.Idx) :
    ∃ t : Fin cfg0.N, (cfg0.win 3).flush t = true ∧ i ∈ ((cfg0.win 3).blk t).view.set := by
  have hi0 : (i 0).val < 204800 := (i 0).isLt
  have hi1 : (i 1).val < 128 := (i 1).isLt
  have hN : cfg0.N = 50 := N_0
  let t : Fin cfg0.N := ⟨(i 0).val / 4096, by rw [hN]; omega⟩
  have ht : t.val = (i 0).val / 4096 := rfl
  obtain ⟨-, -, -, -, -, -, e0, e1⟩ := idx0 t
  refine ⟨t, flush0_3 t, ?_⟩
  rw [mem_blk0]
  intro a
  match a with
  | ⟨0, _⟩ => show win0_3.index t (0 : Fin 2) * 4096 ≤ (i 0).val ∧ (i 0).val < win0_3.index t (0 : Fin 2) * 4096 + 4096; omega
  | ⟨1, _⟩ => show win0_3.index t (1 : Fin 2) * 128 ≤ (i 1).val ∧ (i 1).val < win0_3.index t (1 : Fin 2) * 128 + 128; omega

/-! ## The array after the last write-back -/

theorem res0_eq (c : Dev nD) : res0 V c = affineRelu0 (lhs0 V c) (rhs0 V c) (bias0 V c) :=
  (dat0 V c).arrAt_eq_of_cover 3 (affineRelu0 (lhs0 V c) (rhs0 V c) (bias0 V c)) (fun t _ => flushed0_eq V c t) cover0

/-- Entry (p, q) of the region's output array is the row-by-column sum plus the bias row's entry, cut off below at zero. -/
theorem region0_out_apply (c : Dev nD) (p : Fin 204800) (q : Fin 128) :
    res0 V c (ix2 p q) = max ((∑ k : Fin 256, lhs0 V c (ix2 p k) * rhs0 V c (ix2 k q)) + bias0 V c (ix2 0 q)) 0 := by
  rw [res0_eq]
  rfl

end Cert.KernelIdeal.Hand

end
-- ==== Proof.Region1.lean ====
import proofs.«133155_j46127948759115_1_alg».proof.Proof.Gen.KernelIdeal.Frame
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StackMember

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The three input arrays of the region as it finds them, at their literal types. -/
abbrev lhs1 (c : Dev nD) : FVec Ideal S204800x128 .f32 := V c (Pipeline.arrRef spec1 0)
abbrev rhs1 (c : Dev nD) : FVec Ideal S128x64 .f32 := V c (Pipeline.arrRef spec1 1)
abbrev bias1 (c : Dev nD) : FVec Ideal S1x64 .f32 := V c (Pipeline.arrRef spec1 2)
/-- The output array after the region's last write-back. -/
abbrev res1 (c : Dev nD) : FVec Ideal S204800x64 .f32 := (dat1 (F := Ideal) V c).arrAt 3 cfg1.N

/-! ## The whole-array function -/

/-- Row p of a 204800×128 matrix against column q of a 128×64 matrix, plus entry q of a bias row. -/
def rowCol1 (L : FVec Ideal S204800x128 .f32) (R : FVec Ideal S128x64 .f32) (B : FVec Ideal S1x64 .f32)
    (p : Fin 204800) (q : Fin 64) : EReal :=
  (∑ k : Fin 128, L (ix2 p k) * R (ix2 k q)) + B (ix2 0 q)

/-- The same as one array: the matrix product plus the bias row on every row. -/
def affine1 (L : FVec Ideal S204800x128 .f32) (R : FVec Ideal S128x64 .f32) (B : FVec Ideal S1x64 .f32) :
    FVec Ideal S204800x64 .f32 :=
  fun i => rowCol1 L R B (i 0) (i 1)

theorem affine1_apply (L : FVec Ideal S204800x128 .f32) (R : FVec Ideal S128x64 .f32) (B : FVec Ideal S1x64 .f32)
    (p : Fin 204800) (q : Fin 64) :
    affine1 L R B (ix2 p q) = (∑ k : Fin 128, L (ix2 p k) * R (ix2 k q)) + B (ix2 0 q) := rfl

/-! ## The body's stored value at an entry -/

/-- The product of a 4096×128 block by the 128×64 matrix into a zero accumulator, entry by entry. -/
theorem mm1_apply (l : FVec Ideal S4096x128 .bf16) (r : FVec Ideal S128x64 .bf16) (a : Fin 4096) (b : Fin 64) :
    matmul dot_S4096x128_S128x64_S4096x64_1_0_0_1_n_n none l r (constant S4096x64 .f32 0x00000000#32) (ix2 a b)
      = ∑ k : Fin 128, l (ix2 a k) * r (ix2 k b) := by
  rw [← StackMember.dotGeneral_plain_apply (m := 4096) (n := 64) none l r a b]
  show FloatOps.matmul _ none l r _ (ix2 a b) = FloatOps.dotGeneral _ none _ l r (ix2 a b)
  rw [Ideal.matmul_constant_zero_apply, Ideal.dotGeneral_apply]
  rfl

/-- The body's stored value at entry (a, b) of its block: on the extended reals the narrowing of the operands changes
    nothing, and the accumulator is zero. -/
theorem pay1_apply (x0 : Vec Ideal S4096x128 .f32) (x1 : Vec Ideal S128x64 .f32) (x2 : Vec Ideal S1x64 .f32)
    (a : Fin 4096) (b : Fin 64) :
    k1_pay1 x0 x1 x2 (ix2 a b) = (∑ k : Fin 128, x0 (ix2 a k) * x1 (ix2 k b)) + x2 (ix2 0 b) := by
  unfold k1_pay1
  rw [addf_apply, mm1_apply, broadcastTo_1b_ab_apply, shapeCast_self, shapeCast_self]
  simp only [truncf_apply]

/-- A block whose rows are rows s·4096 … s·4096 + 4095 of L, against the whole of R and B, holds at each of its
    entries the whole-array function at the entry's place in the array. -/
theorem pay1_eq_of_rows (L : FVec Ideal S204800x128 .f32) (R : FVec Ideal S128x64 .f32) (B : FVec Ideal S1x64 .f32)
    (x0 : Vec Ideal S4096x128 .f32) (x1 : Vec Ideal S128x64 .f32) (x2 : Vec Ideal S1x64 .f32) (s : Nat)
    (h0 : ∀ (a : Fin 4096) (k : Fin 128) (p : Fin 204800), p.val = s * 4096 + a.val → x0 (ix2 a k) = L (ix2 p k))
    (h1 : ∀ (k : Fin 128) (b : Fin 64), x1 (ix2 k b) = R (ix2 k b))
    (h2 : ∀ b : Fin 64, x2 (ix2 0 b) = B (ix2 0 b))
    (y : S4096x64.Idx) (i : S204800x64.Idx) (hi0 : (i 0).val = s * 4096 + (y 0).val) (hi1 : (i 1).val = (y 1).val) :
    k1_pay1 x0 x1 x2 y = affine1 L R B i := by
  obtain ⟨a, b, rfl⟩ : ∃ (a : Fin 4096) (b : Fin 64), y = ix2 a b := ⟨y 0, y 1, eq_ix2 y⟩
  obtain ⟨p, q, rfl⟩ : ∃ (p : Fin 204800) (q : Fin 64), i = ix2 p q := ⟨i 0, i 1, eq_ix2 i⟩
  have hq : q = b := Fin.ext hi1
  subst hq
  rw [pay1_apply, affine1_apply, h2]
  congr 1
  exact Finset.sum_congr rfl fun k _ => by rw [h0 a k p hi0, h1]

/-! ## The index maps, decided over the grid -/

theorem hz1 : (![0, 0] : Fin 2 → Nat) = fun _ => 0 := funext fun a => by fin_cases a <;> rfl

/-- Windows 0 and 3 take row block t at point t; windows 1 and 2 stay on their one block. -/
theorem idx1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-! ## The input blocks as rows of their arrays -/

theorem lhs1_blk (c : Dev nD) (t : Fin cfg1.N) (a : Fin 4096) (k : Fin 128) (p : Fin 204800)
    (hp : p.val = t.val * 4096 + a.val) :
    (iblk1 V c 0 t : Vec Ideal S4096x128 .f32) (ix2 a k) = lhs1 V c (ix2 p k) := by
  obtain ⟨e0, e1, -⟩ := idx1 t
  show V c (Pipeline.arrRef spec1 0) (((cfg1.win 0).blk t).view.emb (ix2 a k)) = V c (Pipeline.arrRef spec1 0) (ix2 p k)
  congr 1
  funext ax; apply Fin.ext
  match ax with
  | ⟨0, _⟩ => show win1_0.index t (0 : Fin 2) * 4096 + 1 * a.val = p.val; omega
  | ⟨1, _⟩ => show win1_0.index t (1 : Fin 2) * 128 + 1 * k.val = k.val; omega

theorem rhs1_blk (c : Dev nD) (t : Fin cfg1.N) (k : Fin 128) (b : Fin 64) :
    (iblk1 V c 1 t : Vec Ideal S128x64 .f32) (ix2 k b) = rhs1 V c (ix2 k b) := by
  obtain ⟨-, -, e0, e1, -⟩ := idx1 t
  show V c (Pipeline.arrRef spec1 1) (((cfg1.win 1).blk t).view.emb (ix2 k b)) = V c (Pipeline.arrRef spec1 1) (ix2 k b)
  congr 1
  funext ax; apply Fin.ext
  match ax with
  | ⟨0, _⟩ => show win1_1.index t (0 : Fin 2) * 128 + 1 * k.val = k.val; omega
  | ⟨1, _⟩ => show win1_1.index t (1 : Fin 2) * 64 + 1 * b.val = b.val; omega

theorem bias1_blk (c : Dev nD) (t : Fin cfg1.N) (b : Fin 64) :
    (iblk1 V c 2 t : Vec Ideal S1x64 .f32) (ix2 0 b) = bias1 V c (ix2 0 b) := by
  obtain ⟨-, -, -, -, e0, e1, -⟩ := idx1 t
  show V c (Pipeline.arrRef spec1 2) (((cfg1.win 2).blk t).view.emb (ix2 0 b)) = V c (Pipeline.arrRef spec1 2) (ix2 0 b)
  congr 1
  funext ax; apply Fin.ext
  match ax with
  | ⟨0, _⟩ => show win1_2.index t (0 : Fin 2) * 1 + 1 * 0 = 0; omega
  | ⟨1, _⟩ => show win1_2.index t (1 : Fin 2) * 64 + 1 * b.val = b.val; omega

/-! ## What a point writes back -/

/-- Point t writes back block t of the whole-array function of the three arrays. -/
theorem flushed1_eq (c : Dev nD) (t : Fin cfg1.N) :
    (dat1 V c).flushed 3 t
      = ((cfg1.win 3).blk t).view.read (Elt Ideal) (affine1 (lhs1 V c) (rhs1 V c) (bias1 V c)) := by
  show (cfg1.win 3).cut (grid1.coords t) ((dat1 V c).after 3 t) = _
  rw [after1_3]
  unfold out1_3
  rw [View.canon_unit_zero hz1]
  simp only [View.ld_unit_zero (S := S4096x128) hz1, View.ld_unit_zero (S := S128x64) hz1, View.ld_unit_zero (S := S1x64) hz1]
  obtain ⟨-, -, -, -, -, -, e0, e1⟩ := idx1 t
  funext j
  show k1_pay1 (iblk1 V c 0 t) (iblk1 V c 1 t) (iblk1 V c 2 t) j
    = affine1 (lhs1 V c) (rhs1 V c) (bias1 V c) (((cfg1.win 3).blk t).view.emb j)
  refine pay1_eq_of_rows (lhs1 V c) (rhs1 V c) (bias1 V c) (iblk1 V c 0 t) (iblk1 V c 1 t) (iblk1 V c 2 t) t.val
    (fun a k p hp => lhs1_blk V c t a k p hp) (fun k b => rhs1_blk V c t k b) (fun b => bias1_blk V c t b) j _ ?_ ?_
  · show win1_3.index t (0 : Fin 2) * 4096 + 1 * (j 0).val = t.val * 4096 + (j 0).val; omega
  · show win1_3.index t (1 : Fin 2) * 64 + 1 * (j 1).val = (j 1).val; omega

/-! ## The cover -/

/-- An index of the array is in point t's block iff each coordinate is in the block's range on its axis. -/
theorem mem_blk1 (t : Fin cfg1.N) (i : S204800x64.Idx) :
    i ∈ ((cfg1.win 3).blk t).view.set ↔ ∀ a : Fin 2, win1_3.index t a * S4096x64.size a ≤ (i a).val ∧ (i a).val < win1_3.index t a * S4096x64.size a + S4096x64.size a := by
  show i ∈ ((View.whole main_v51).slice (win1_3.rect t)).set ↔ _
  rw [View.set_slice_whole, Rect.mem_set_unit]
  exact Iff.rfl

/-- Every row of the array lies in the block of the point numbered by the row divided by the block's height. -/
theorem cover1 (i : S204800x64.Idx) :
    ∃ t : Fin cfg1.N, (cfg1.win 3).flush t = true ∧ i ∈ ((cfg1.win 3).blk t).view.set := by
  have hi0 : (i 0).val < 204800 := (i 0).isLt
  have hi1 : (i 1).val < 64 := (i 1).isLt
  have hN : cfg1.N = 50 := N_1
  let t : Fin cfg1.N := ⟨(i 0).val / 4096, by rw [hN]; omega⟩
  have ht : t.val = (i 0).val / 4096 := rfl
  obtain ⟨-, -, -, -, -, -, e0, e1⟩ := idx1 t
  refine ⟨t, flush1_3 t, ?_⟩
  rw [mem_blk1]
  intro a
  match a with
  | ⟨0, _⟩ => show win1_3.index t (0 : Fin 2) * 4096 ≤ (i 0).val ∧ (i 0).val < win1_3.index t (0 : Fin 2) * 4096 + 4096; omega
  | ⟨1, _⟩ => show win1_3.index t (1 : Fin 2) * 64 ≤ (i 1).val ∧ (i 1).val < win1_3.index t (1 : Fin 2) * 64 + 64; omega

/-! ## The array after the last write-back -/

theorem res1_eq (c : Dev nD) : res1 V c = affine1 (lhs1 V c) (rhs1 V c) (bias1 V c) :=
  (dat1 V c).arrAt_eq_of_cover 3 (affine1 (lhs1 V c) (rhs1 V c) (bias1 V c)) (fun t _ => flushed1_eq V c t) cover1

/-- Entry (p, q) of the region's output array is the row-by-column sum plus the bias row's entry. -/
theorem region1_out_apply (c : Dev nD) (p : Fin 204800) (q : Fin 64) :
    res1 V c (ix2 p q) = ((∑ k : Fin 128, lhs1 V c (ix2 p k) * rhs1 V c (ix2 k q)) + bias1 V c (ix2 0 q)) := by
  rw [res1_eq]
  rfl

end Cert.KernelIdeal.Hand

end
-- ==== Proof.Region2.lean ====
import proofs.«133155_j46127948759115_1_alg».proof.Proof.Gen.KernelIdeal.Frame
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StackMember

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The three input arrays of the region as it finds them, at their literal types. -/
abbrev lhs2 (c : Dev nD) : FVec Ideal S8192x1600 .f32 := V c (Pipeline.arrRef spec2 0)
abbrev rhs2 (c : Dev nD) : FVec Ideal S1600x64 .f32 := V c (Pipeline.arrRef spec2 1)
abbrev bias2 (c : Dev nD) : FVec Ideal S1x64 .f32 := V c (Pipeline.arrRef spec2 2)
/-- The output array after the region's last write-back. -/
abbrev res2 (c : Dev nD) : FVec Ideal S8192x64 .f32 := (dat2 (F := Ideal) V c).arrAt 3 cfg2.N

namespace Region2

/-- The printed dimension numbers are the plain rows-by-columns product's. -/
theorem dot2_plain : dot_S1024x1600_S1600x64_S1024x64_1_0_0_1_n_n = DotDims.plain 1024 1600 64 := rfl

/-- A plain product accumulated into the zero splat, read at an entry: the sum over the contracted coordinate. -/
theorem matmul_zero_plain_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant ⟨2, ![m, n]⟩ .f32 0x00000000#32) (ix2 a b)
      = ∑ c : Fin k, A (ix2 a c) * B (ix2 c b) :=
  ((Ideal.matmul_constant_zero_apply (DotDims.plain m k n) prec A B (ix2 a b)).trans
    (Ideal.dotGeneral_apply (DotDims.plain m k n) prec .single A B (ix2 a b)).symm).trans
    (StackMember.dotGeneral_plain_apply prec A B a b)

/-- The body's value at entry (p, q) of its output block: row p of the first block times column q of the second,
    plus the bias row's entry q, cut off below at zero. The format changes are the identity on the extended reals
    and the accumulator is the zero splat. -/
theorem pay_apply (x0 : Vec Ideal S1024x1600 .f32) (x1 : Vec Ideal S1600x64 .f32) (x2 : Vec Ideal S1x64 .f32)
    (p : Fin 1024) (q : Fin 64) :
    k2_pay1 (F := Ideal) x0 x1 x2 (ix2 p q)
      = max ((∑ k : Fin 1600, x0 (ix2 p k) * x1 (ix2 k q)) + x2 (ix2 0 q)) 0 := by
  unfold k2_pay1
  rw [shapeCast_self, shapeCast_self, maximumf_apply, addf_apply, broadcast_apply, dot2_plain]
  refine congrArg₂ max (congrArg₂ (· + ·) ?_ ?_) Ideal.ofBits_zero_f32
  · exact matmul_zero_plain_apply none _ _ p q
  · exact broadcastTo_1b_ab_apply x2 _ p q

/-- Entry (p, q) of the rows-by-columns product plus the bias row, cut off below at zero. -/
def affineReluEntry (A : FVec Ideal S8192x1600 .f32) (W : FVec Ideal S1600x64 .f32) (b : FVec Ideal S1x64 .f32)
    (p : Fin 8192) (q : Fin 64) : EReal :=
  max ((∑ k : Fin 1600, A (ix2 p k) * W (ix2 k q)) + b (ix2 0 q)) 0

/-- The whole output array as one function of the three input arrays. -/
def affineRelu (A : FVec Ideal S8192x1600 .f32) (W : FVec Ideal S1600x64 .f32) (b : FVec Ideal S1x64 .f32) :
    FVec Ideal S8192x64 .f32 :=
  fun i => affineReluEntry A W b (i 0) (i 1)

/-- The whole-array function read at entry (p, q). -/
theorem affineRelu_apply (A : FVec Ideal S8192x1600 .f32) (W : FVec Ideal S1600x64 .f32) (b : FVec Ideal S1x64 .f32)
    (p : Fin 8192) (q : Fin 64) :
    affineRelu A W b (ix2 p q) = max ((∑ k : Fin 1600, A (ix2 p k) * W (ix2 k q)) + b (ix2 0 q)) 0 := rfl

/-- The zero offsets of a whole-buffer access, however spelt. -/
theorem zeroOff : (![0, 0] : Fin 2 → Nat) = fun _ => 0 := funext fun a => by fin_cases a <;> rfl

/-- The printed index maps over the grid: the row-blocked windows (the left operand and the output) sit on row block
    `t` at point `t`; the right operand's and the bias row's windows are the whole arrays at every point. -/
theorem index_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The left operand's block at point `t` is rows `1024 t … 1024 t + 1023` of its array. -/
theorem lhs_block_apply (c : Dev nD) (t : Fin cfg2.N) (p : Fin 1024) (k : Fin 1600) (r : Fin 8192)
    (hr : r.val = t.val * 1024 + p.val) :
    (iblk2 V c 0 t : Vec Ideal S1024x1600 .f32) (ix2 p k) = lhs2 V c (ix2 r k) := by
  obtain ⟨e0, e1, -⟩ := index_facts t
  show V c (Pipeline.arrRef spec2 0) (((cfg2.win 0).blk t).view.emb (ix2 p k)) = V c (Pipeline.arrRef spec2 0) (ix2 r k)
  refine congrArg _ (funext fun a => Fin.ext ?_)
  match a with
  | ⟨0, _⟩ => show win2_0.index t (0 : Fin 2) * 1024 + 1 * p.val = r.val; omega
  | ⟨1, _⟩ => show win2_0.index t (1 : Fin 2) * 1600 + 1 * k.val = k.val; omega

/-- The right operand's block at every point is its whole array. -/
theorem rhs_block_apply (c : Dev nD) (t : Fin cfg2.N) (k : Fin 1600) (q : Fin 64) :
    (iblk2 V c 1 t : Vec Ideal S1600x64 .f32) (ix2 k q) = rhs2 V c (ix2 k q) := by
  obtain ⟨-, -, e0, e1, -⟩ := index_facts t
  show V c (Pipeline.arrRef spec2 1) (((cfg2.win 1).blk t).view.emb (ix2 k q)) = V c (Pipeline.arrRef spec2 1) (ix2 k q)
  refine congrArg _ (funext fun a => Fin.ext ?_)
  match a with
  | ⟨0, _⟩ => show win2_1.index t (0 : Fin 2) * 1600 + 1 * k.val = k.val; omega
  | ⟨1, _⟩ => show win2_1.index t (1 : Fin 2) * 64 + 1 * q.val = q.val; omega

/-- The bias row's block at every point is the whole row. -/
theorem bias_block_apply (c : Dev nD) (t : Fin cfg2.N) (z : Fin 1) (q : Fin 64) :
    (iblk2 V c 2 t : Vec Ideal S1x64 .f32) (ix2 z q) = bias2 V c (ix2 z q) := by
  obtain ⟨-, -, -, -, e0, e1, -⟩ := index_facts t
  show V c (Pipeline.arrRef spec2 2) (((cfg2.win 2).blk t).view.emb (ix2 z q)) = V c (Pipeline.arrRef spec2 2) (ix2 z q)
  refine congrArg _ (funext fun a => Fin.ext ?_)
  match a with
  | ⟨0, _⟩ => show win2_2.index t (0 : Fin 2) * 1 + 1 * z.val = z.val; omega
  | ⟨1, _⟩ => show win2_2.index t (1 : Fin 2) * 64 + 1 * q.val = q.val; omega

/-- Entry (p, q) of the output's block at point `t` sits at row `1024 t + p`, column `q` of the output array. -/
theorem out_block_emb (t : Fin cfg2.N) (p : Fin 1024) (q : Fin 64) (r : Fin 8192) (hr : r.val = t.val * 1024 + p.val) :
    ((cfg2.win 3).blk t).view.emb (ix2 p q) = (ix2 r q : S8192x64.Idx) := by
  obtain ⟨-, -, -, -, -, -, e0, e1⟩ := index_facts t
  refine funext fun a => Fin.ext ?_
  match a with
  | ⟨0, _⟩ => show win2_3.index t (0 : Fin 2) * 1024 + 1 * p.val = r.val; omega
  | ⟨1, _⟩ => show win2_3.index t (1 : Fin 2) * 64 + 1 * q.val = q.val; omega

/-- What point `t` writes back is row block `t` of the whole-array function of the three arrays. -/
theorem flushed_eq (c : Dev nD) (t : Fin cfg2.N) :
    (dat2 (F := Ideal) V c).flushed 3 t
      = ((cfg2.win 3).blk t).view.read (Elt Ideal) (affineRelu (lhs2 V c) (rhs2 V c) (bias2 V c)) := by
  show (cfg2.win 3).cut (grid2.coords t) ((dat2 V c).after 3 t) = _
  rw [after2_3]
  unfold out2_3
  rw [View.canon_unit_zero zeroOff]
  simp only [View.ld_unit_zero (S := S1024x1600) zeroOff, View.ld_unit_zero (S := S1600x64) zeroOff,
    View.ld_unit_zero (S := S1x64) zeroOff]
  funext j
  obtain ⟨p, q, rfl⟩ : ∃ (p : Fin 1024) (q : Fin 64), j = ix2 p q := ⟨j 0, j 1, eq_ix2 j⟩
  have ht : t.val < 8 := by have h := t.isLt; have e : cfg2.N = 8 := N_2; omega
  have hr : t.val * 1024 + p.val < 8192 := by omega
  show k2_pay1 (iblk2 V c 0 t) (iblk2 V c 1 t) (iblk2 V c 2 t) (ix2 p q)
    = affineRelu (lhs2 V c) (rhs2 V c) (bias2 V c) (((cfg2.win 3).blk t).view.emb (ix2 p q))
  rw [out_block_emb t p q ⟨t.val * 1024 + p.val, hr⟩ rfl, affineRelu_apply]
  refine (pay_apply (iblk2 V c 0 t) (iblk2 V c 1 t) (iblk2 V c 2 t) p q).trans ?_
  refine congrArg₂ max (congrArg₂ (· + ·) (Finset.sum_congr rfl fun k _ => congrArg₂ (· * ·) ?_ ?_) ?_) rfl
  · exact lhs_block_apply V c t p k ⟨t.val * 1024 + p.val, hr⟩ rfl
  · exact rhs_block_apply V c t k q
  · exact bias_block_apply V c t 0 q

/-- An index of the output array is in point `t`'s block iff each coordinate is in the block's range on its axis. -/
theorem mem_out_block (t : Fin cfg2.N) (i : S8192x64.Idx) :
    i ∈ ((cfg2.win 3).blk t).view.set
      ↔ ∀ a : Fin 2, win2_3.index t a * S1024x64.size a ≤ (i a).val
          ∧ (i a).val < win2_3.index t a * S1024x64.size a + S1024x64.size a := by
  show i ∈ ((View.whole main_v74).slice (win2_3.rect t)).set ↔ _
  rw [View.set_slice_whole, Rect.mem_set_unit]
  exact Iff.rfl

/-- Every row of the output array lies in the block of the point its row block names. -/
theorem out_cover (i : S8192x64.Idx) :
    ∃ t : Fin cfg2.N, (cfg2.win 3).flush t = true ∧ i ∈ ((cfg2.win 3).blk t).view.set := by
  have hi0 : (i 0).val < 8192 := (i 0).isLt
  have hi1 : (i 1).val < 64 := (i 1).isLt
  have hN : cfg2.N = 8 := N_2
  refine ⟨⟨(i 0).val / 1024, by omega⟩, flush2_3 _, ?_⟩
  rw [mem_out_block]
  obtain ⟨-, -, -, -, -, -, e0, e1⟩ := index_facts ⟨(i 0).val / 1024, by omega⟩
  intro a
  match a with
  | ⟨0, _⟩ =>
    show win2_3.index _ (0 : Fin 2) * 1024 ≤ (i 0).val ∧ (i 0).val < win2_3.index _ (0 : Fin 2) * 1024 + 1024
    rw [e0]; show (i 0).val / 1024 * 1024 ≤ (i 0).val ∧ (i 0).val < (i 0).val / 1024 * 1024 + 1024; omega
  | ⟨1, _⟩ =>
    show win2_3.index _ (1 : Fin 2) * 64 ≤ (i 1).val ∧ (i 1).val < win2_3.index _ (1 : Fin 2) * 64 + 64
    rw [e1]; omega

/-- The output array after the last write-back is the whole-array function of the three input arrays. -/
theorem out_final (c : Dev nD) :
    (dat2 (F := Ideal) V c).arrAt 3 cfg2.N = affineRelu (lhs2 V c) (rhs2 V c) (bias2 V c) :=
  (dat2 (F := Ideal) V c).arrAt_eq_of_cover 3 (affineRelu (lhs2 V c) (rhs2 V c) (bias2 V c))
    (fun t _ => flushed_eq V c t) out_cover

end Region2

/-- Entry (p, q) of the region's output array is the row-by-column sum plus the bias row's entry, cut off below at zero. -/
theorem region2_out_apply (c : Dev nD) (p : Fin 8192) (q : Fin 64) :
    res2 V c (ix2 p q) = max ((∑ k : Fin 1600, lhs2 V c (ix2 p k) * rhs2 V c (ix2 k q)) + bias2 V c (ix2 0 q)) 0 :=
  (congrFun (Region2.out_final V c) (ix2 p q)).trans (Region2.affineRelu_apply _ _ _ p q)

end Cert.KernelIdeal.Hand

end
-- ==== Proof.LibRowGatherScatter.lean ====
/-
  GENERAL LEMMAS: two indexed host operations, the broadcasts that feed them, and two small companions, each READ AT AN
  INDEX over the extended reals, for ARBITRARY extents N (table rows), E (edges) and D (features).

  * the row gather (`x[idx]` of an [N, D] table at a column [E, 1] of start words: `rowGather`, `rowGather_apply`):
    result (e, q) is the table at (the start word of edge e read signed and clamped into the rows [0, N − 1], q);
  * the accumulating row scatter (`segment_sum` / `.at[idx].add` of [E, D] updates into an [N, D] operand at a column
    [E, 1] of start words: `rowScatter`, `rowScatter_resultIdx_iff`, `rowScatterAdd_apply`): update (e, q') lands at
    (the start word of edge e read signed and NOT clamped, q'), or nowhere when that is no row; so result (d, q) is the
    operand's entry plus the sum over the edges whose word, read signed, is d of update (e, q);
  * a scalar, a vector as a column, a column over the features, a vector as a row and a row over the rows, each
    broadcast read at an index (`bcastScalar_apply` … `bcastRows_apply`);
  * jnp's index normalisation as a select (`wrap_select`: a negative word counts from the end) and the maximum with a
    broadcast zero (`reluOps_apply`).
  Nothing here mentions a program: the dimension-number records are built from a well-formedness fact the caller has.
-/
import Idealize.ShloMosaic.PureOps.Ideal
import Idealize.ShloMosaic.PureOps.Contract
import Idealize.ShloMosaic.Lib.ValueIdx
import Idealize.ShloMosaic.Lib.Affine
import Idealize.ShloMosaic.Lib.Pipeline.Value
import Idealize.ShloMosaic.Lib.StackMember
import Mathlib.Algebra.BigOperators.Group.Finset.Basic
import Mathlib.Algebra.BigOperators.Fin

noncomputable section

open scoped BigOperators

namespace Cert.ReferenceIdeal.Hand

open Idealize.ShloMosaic Idealize.ShloMosaic.ValueIdx

/-! ## The row gather -/

section Gather
variable {α : Type}

/-- The dimension numbers of a gather of whole rows of an [N, D] table at a column [E, 1] of start words:
    the row axis collapsed and indexed, the feature axis an offset axis. -/
abbrev rowGather (N E D : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- The row gather at (e, q): the table at the clamped signed start word of e, feature q. -/
theorem rowGather_apply {N E D w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (q : Fin D) :
    Host.gather (rowGather N E D wf) x idx (ix2 e q)
      = x (ix2 ⟨min (idx (ix2 e 0)).toInt.toNat (N - 1), by omega⟩ q) := by
  unfold Host.gather
  congr 1
  funext a
  refine Fin.ext ?_
  match a with
  | ⟨0, _⟩ =>
    show (rowGather N E D wf).start (ix2 e q) idx 0 + (rowGather N E D wf).batchCoord (ix2 e q) 0
      + (rowGather N E D wf).offCoord (ix2 e q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather N E D wf).startIndexMap from List.mem_singleton.mpr rfl)]
    have hsi : (rowGather N E D wf).siIdx (ix2 e q) ⟨List.idxOf (0 : Fin 2) (rowGather N E D wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowGather N E D wf).start (ix2 e q) idx 1 + (rowGather N E D wf).batchCoord (ix2 e q) 1
      + (rowGather N E D wf).offCoord (ix2 e q) 1 = q.val
    have h1 : (1 : Fin 2) ∉ (rowGather N E D wf).startIndexMap := by
      show (1 : Fin 2) ∉ [(0 : Fin 2)]
      decide
    rw [GatherDims.batchCoord_eq_zero _ _ _ List.not_mem_nil]
    unfold GatherDims.start
    rw [dif_neg h1]
    simp only [Nat.add_zero, Nat.zero_add]
    unfold GatherDims.offCoord
    rw [dif_pos ((GatherDims.mem_sKept _ _).mpr ⟨(show (1 : Fin 2) ∉ [(0 : Fin 2)] by decide), List.not_mem_nil⟩)]
    rfl

/-- The same with the start word of e named: the form a caller uses when the start words are themselves computed. -/
theorem rowGather_apply_of_eq {N E D w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (q : Fin D) (s : BitVec w)
    (hs : idx (ix2 e 0) = s) :
    Host.gather (rowGather N E D wf) x idx (ix2 e q) = x (ix2 ⟨min s.toInt.toNat (N - 1), by omega⟩ q) := by
  subst hs
  exact rowGather_apply hN wf x idx e q

end Gather

/-! ## The accumulating row scatter -/

section Scatter

/-- The dimension numbers of a scatter of whole rows [E, D] into an [N, D] operand at a column [E, 1] of start
    words: the feature axis a window axis, the row axis inserted and indexed. -/
abbrev rowScatter (N E D : Nat) (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

variable {N E D w : Nat} (wf : ScatterDims.WF ⟨2, ![N, D]⟩ ⟨2, ![E, 1]⟩ ⟨2, ![E, D]⟩ [1] [0] [0] 1)
  (idx : IVec ⟨2, ![E, 1]⟩ w)

/-- On the row axis the window of update (e, q') starts at the start word of e, read signed … -/
theorem rowScatter_start_zero (e : Fin E) (q' : Fin D) :
    (rowScatter N E D wf).start (ix2 e q') idx 0 = (idx (ix2 e 0)).toInt := by
  unfold ScatterDims.start
  rw [dif_pos (show (0 : Fin 2) ∈ (rowScatter N E D wf).scatterDimsToOperandDims from List.mem_singleton.mpr rfl)]
  have hsi : (rowScatter N E D wf).siIdx (ix2 e q') ⟨List.idxOf (0 : Fin 2) (rowScatter N E D wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

/-- … and on the feature axis at 0. -/
theorem rowScatter_start_one (e : Fin E) (q' : Fin D) :
    (rowScatter N E D wf).start (ix2 e q') idx 1 = 0 := by
  unfold ScatterDims.start
  rw [dif_neg (show (1 : Fin 2) ∉ [(0 : Fin 2)] by decide)]

/-- The window coordinate of update (e, q') is 0 on the row axis … -/
theorem rowScatter_window_zero (e : Fin E) (q' : Fin D) :
    (rowScatter N E D wf).window (ix2 e q') 0 = 0 := by
  unfold ScatterDims.window
  rw [dif_neg]
  show (0 : Fin 2) ∉ (List.finRange 2).filter (· ∉ [(0 : Fin 2)])
  decide

/-- … and q' on the feature axis. -/
theorem rowScatter_window_one (e : Fin E) (q' : Fin D) :
    (rowScatter N E D wf).window (ix2 e q') 1 = q'.val := by
  unfold ScatterDims.window
  have h1 : (1 : Fin 2) ∈ (rowScatter N E D wf).sKept := by
    show (1 : Fin 2) ∈ (List.finRange 2).filter (· ∉ [(0 : Fin 2)])
    decide
  rw [dif_pos h1]
  rfl

/-- Update (e, q') lands at (d, q) exactly when the start word of e, read signed, is d and q' = q. -/
theorem rowScatter_resultIdx_iff (e : Fin E) (q' : Fin D) (d : Fin N) (q : Fin D) :
    (rowScatter N E D wf).resultIdx? (ix2 e q') idx = some (ix2 d q)
      ↔ (idx (ix2 e 0)).toInt = (d.val : ℤ) ∧ q' = q := by
  unfold ScatterDims.resultIdx?
  split
  · next h =>
    rw [Option.some.injEq]
    have h0 := h 0
    have h1 := h 1
    rw [rowScatter_start_zero, rowScatter_window_zero] at h0
    constructor
    · intro hf
      have e0 := congrArg (fun f => (f 0).val) hf
      have e1 := congrArg (fun f => (f 1).val) hf
      simp only [rowScatter_start_zero, rowScatter_window_zero, rowScatter_start_one, rowScatter_window_one] at e0 e1
      refine ⟨?_, Fin.ext ?_⟩
      · have : ((ix2 d q : (⟨2, ![N, D]⟩ : Shape).Idx) 0).val = d.val := rfl
        omega
      · have : ((ix2 d q : (⟨2, ![N, D]⟩ : Shape).Idx) 1).val = q.val := rfl
        omega
    · rintro ⟨hd, rfl⟩
      funext a
      refine Fin.ext ?_
      match a with
      | ⟨0, _⟩ =>
        show ((rowScatter N E D wf).start (ix2 e q') idx 0 + ((rowScatter N E D wf).window (ix2 e q') 0 : ℕ)).toNat = d.val
        rw [rowScatter_start_zero, rowScatter_window_zero]
        omega
      | ⟨1, _⟩ =>
        show ((rowScatter N E D wf).start (ix2 e q') idx 1 + ((rowScatter N E D wf).window (ix2 e q') 1 : ℕ)).toNat = q'.val
        rw [rowScatter_start_one, rowScatter_window_one]
        omega
  · next h =>
    constructor
    · intro hf
      exact absurd hf (by simp)
    · rintro ⟨hd, rfl⟩
      exfalso
      apply h
      intro a
      match a with
      | ⟨0, _⟩ =>
        show 0 ≤ (rowScatter N E D wf).start (ix2 e q') idx 0 + ((rowScatter N E D wf).window (ix2 e q') 0 : ℕ)
          ∧ (rowScatter N E D wf).start (ix2 e q') idx 0 + ((rowScatter N E D wf).window (ix2 e q') 0 : ℕ) < (N : ℤ)
        rw [rowScatter_start_zero, rowScatter_window_zero]
        have := d.isLt
        omega
      | ⟨1, _⟩ =>
        show 0 ≤ (rowScatter N E D wf).start (ix2 e q') idx 1 + ((rowScatter N E D wf).window (ix2 e q') 1 : ℕ)
          ∧ (rowScatter N E D wf).start (ix2 e q') idx 1 + ((rowScatter N E D wf).window (ix2 e q') 1 : ℕ) < (D : ℤ)
        rw [rowScatter_start_one, rowScatter_window_one]
        have := q'.isLt
        omega

/-- THE ACCUMULATING ROW SCATTER AT (d, q): the operand's entry plus the sum, over the edges whose start word read
    signed is d, of update (e, q). The sum over the rank-2 update indices that land at (d, q) is split by
    coordinates; in the inner sum over features only q' = q survives. -/
theorem rowScatterAdd_apply {φ : FTy} (x : FVec Ideal ⟨2, ![N, D]⟩ φ) (upd : FVec Ideal ⟨2, ![E, D]⟩ φ) (d : Fin N) (q : Fin D) :
    Host.scatterAdd (F := Ideal) (rowScatter N E D wf) x idx upd (ix2 d q)
      = x (ix2 d q) + ∑ e ∈ Finset.univ.filter (fun e : Fin E => (idx (ix2 e 0)).toInt = (d.val : ℤ)), upd (ix2 e q) := by
  show Ideal.hostScatterAdd (rowScatter N E D wf) x idx upd (ix2 d q) = _
  unfold Ideal.hostScatterAdd
  congr 1
  rw [Finset.sum_filter, sum_idx2, Finset.sum_filter]
  refine Finset.sum_congr rfl fun e _ => ?_
  simp only [rowScatter_resultIdx_iff]
  by_cases hd : (idx (ix2 e 0)).toInt = (d.val : ℤ)
  · simp only [hd, true_and, if_true]
    rw [Finset.sum_ite_eq' Finset.univ q (fun q' => upd (ix2 e q'))]
    simp
  · simp only [hd, false_and, if_false]
    exact Finset.sum_const_zero

end Scatter

/-! ## Broadcasts read at an index -/

section Broadcasts
variable {α : Type}

/-- A scalar spread over any shape reads the scalar everywhere. -/
theorem bcastScalar_apply {t : Shape} (h : (⟨0, ![]⟩ : Shape).BroadcastsInDim t ![])
    (v : (⟨0, ![]⟩ : Shape).Idx → α) (j : t.Idx) : broadcastInDim t ![] h v j = v ix0 := by
  unfold broadcastInDim
  exact congrArg v (funext fun a => a.elim0)

/-- A vector as a column [E, 1], at (e, 0): the vector at e. -/
theorem bcastCol_apply {E : Nat} (h : (⟨1, ![E]⟩ : Shape).BroadcastsInDim ⟨2, ![E, 1]⟩ ![0])
    (v : (⟨1, ![E]⟩ : Shape).Idx → α) (e : Fin E) (z : Fin 1) :
    broadcastInDim ⟨2, ![E, 1]⟩ ![0] h v (ix2 e z) = v (ix1 e) := by
  refine broadcastInDim_apply _ h v _ (ix1 e) fun a => ?_
  match a with
  | ⟨0, _⟩ =>
    show e.val = if E = 1 then 0 else e.val
    have := e.isLt
    split <;> omega

/-- A column [E, 1] spread over D features, at (e, q): the column at (e, 0). -/
theorem bcastFeat_apply {E D : Nat} (h : (⟨2, ![E, 1]⟩ : Shape).BroadcastsInDim ⟨2, ![E, D]⟩ ![0, 1])
    (v : (⟨2, ![E, 1]⟩ : Shape).Idx → α) (e : Fin E) (q : Fin D) :
    broadcastInDim ⟨2, ![E, D]⟩ ![0, 1] h v (ix2 e q) = v (ix2 e 0) := by
  refine broadcastInDim_apply _ h v _ (ix2 e 0) fun a => ?_
  match a with
  | ⟨0, _⟩ =>
    show e.val = if E = 1 then 0 else e.val
    have := e.isLt
    split <;> omega
  | ⟨1, _⟩ =>
    show 0 = if 1 = 1 then 0 else q.val
    rfl

/-- A vector [D] as a row [1, D], at (0, q): the vector at q. -/
theorem bcastRow_apply {D : Nat} (h : (⟨1, ![D]⟩ : Shape).BroadcastsInDim ⟨2, ![1, D]⟩ ![1])
    (v : (⟨1, ![D]⟩ : Shape).Idx → α) (z : Fin 1) (q : Fin D) :
    broadcastInDim ⟨2, ![1, D]⟩ ![1] h v (ix2 z q) = v (ix1 q) := by
  refine broadcastInDim_apply _ h v _ (ix1 q) fun a => ?_
  match a with
  | ⟨0, _⟩ =>
    show q.val = if D = 1 then 0 else q.val
    have := q.isLt
    split <;> omega

/-- A row [1, D] spread over N rows, at (d, q): the row at (0, q). -/
theorem bcastRows_apply {N D : Nat} (h : (⟨2, ![1, D]⟩ : Shape).BroadcastsInDim ⟨2, ![N, D]⟩ ![0, 1])
    (v : (⟨2, ![1, D]⟩ : Shape).Idx → α) (d : Fin N) (q : Fin D) :
    broadcastInDim ⟨2, ![N, D]⟩ ![0, 1] h v (ix2 d q) = v (ix2 0 q) := by
  refine broadcastInDim_apply _ h v _ (ix2 0 q) fun a => ?_
  match a with
  | ⟨0, _⟩ =>
    show 0 = if 1 = 1 then 0 else d.val
    rfl
  | ⟨1, _⟩ =>
    show q.val = if D = 1 then 0 else q.val
    have := q.isLt
    split <;> omega

end Broadcasts

/-! ## The start word of a row lookup: a negative word counts from the end -/

/-- The select on "the word is negative" between the word plus the row count and the word itself. -/
theorem wrap_select (s n : BitVec 32) :
    Scalar.select (IntOp.cmpi .slt s 0#32) (IntOp.addi s n) s = if s.toInt < 0 then s + n else s := by
  by_cases h : s.toInt < 0
  · have hc : IntOp.cmpi .slt s 0#32 = 1#1 := IntOp.cmpi_slt.mpr (by simpa using h)
    rw [hc, select_one, if_pos h]
    rfl
  · have hc : ¬IntOp.cmpi .slt s 0#32 = 1#1 := fun hc => h (by simpa using IntOp.cmpi_slt.mp hc)
    rw [eq_zero_of_ne_one hc, select_zero, if_neg h]

/-! ## The rectifier read at an index -/

/-- The maximum with a zero scalar spread over the shape is the maximum with 0, entry by entry. -/
theorem reluOps_apply {t : Shape} (hz : (⟨0, ![]⟩ : Shape).BroadcastsInDim t ![]) (x : FVec Ideal t .f32) (i : t.Idx) :
    maximumf x (broadcastInDim t ![] hz (constant (F := Ideal) ⟨0, ![]⟩ .f32 0x00000000#32)) i = max (x i) 0 := by
  rw [maximumf_apply, bcastScalar_apply, constant_apply, Ideal.ofBits_zero_f32]

end Cert.ReferenceIdeal.Hand

end
-- ==== Proof.GatherEq.lean ====
import proofs.«133155_j46127948759115_1_alg».proof.Proof.Gen.KernelIdeal
import proofs.«133155_j46127948759115_1_alg».proof.Proof.Gen.ReferenceIdeal
import proofs.«133155_j46127948759115_1_alg».proof.Proof.LibRowGatherScatter

noncomputable section

open scoped BigOperators

namespace Cert.Bridge

open Idealize.ShloMosaic Idealize.ShloMosaic.ValueIdx

/-- jnp's lookup index against a row count n, as both programs print it: a negative word counts from the end. -/
abbrev wrapIdx (s : Shape) (hb : (⟨0, ![]⟩ : Shape).BroadcastsInDim s ![]) (n : BitVec 32) (src : IVec s 32) : IVec s 32 :=
  select (cmpi .slt src (broadcastInDim s ![] hb (constantI ⟨0, ![]⟩ 32 0#32))) (addi src (broadcastInDim s ![] hb (constantI ⟨0, ![]⟩ 32 n))) src

/-! ## The general argument: a row lookup in the product of the leading rows is the lookup in the whole product -/

section General

open Cert.ReferenceIdeal.Hand Idealize.ShloMosaic.StackMember

/-- The wrapped lookup word at an index: the word plus the row count when the word is negative, else the word. -/
theorem wrapIdx_apply (s : Shape) (hb : (⟨0, ![]⟩ : Shape).BroadcastsInDim s ![]) (n : BitVec 32) (src : IVec s 32)
    (i : s.Idx) : wrapIdx s hb n src i = if (src i).toInt < 0 then src i + n else src i := by
  show Scalar.select (IntOp.cmpi .slt (src i) (broadcastInDim s ![] hb (constantI ⟨0, ![]⟩ 32 0#32) i))
      (IntOp.addi (src i) (broadcastInDim s ![] hb (constantI ⟨0, ![]⟩ 32 n) i)) (src i) = _
  rw [bcastScalar_apply, bcastScalar_apply]
  exact wrap_select (src i) n

/-- A word that is not negative is its own lookup word, whatever the row count. -/
theorem wrapIdx_of_nonneg (s : Shape) (hb : (⟨0, ![]⟩ : Shape).BroadcastsInDim s ![]) (n : BitVec 32) (src : IVec s 32)
    (i : s.Idx) (h0 : 0 ≤ (src i).toInt) : wrapIdx s hb n src i = src i := by
  rw [wrapIdx_apply, if_neg (by omega)]

/-- A slice of the leading rows (offsets 0) reads the operand at the same coordinates. -/
theorem leadingRows_apply {α : Type} {Ns Nb K : Nat} (x : (⟨2, ![Nb, K]⟩ : Shape).Idx → α)
    (hsl : (⟨2, ![Nb, K]⟩ : Shape).Slices ![0, 0] ⟨2, ![Ns, K]⟩) (r : Fin Ns) (r' : Fin Nb) (hr : r'.val = r.val)
    (c : Fin K) : extractStridedSlice ⟨2, ![Ns, K]⟩ ![0, 0] x hsl (ix2 r c) = x (ix2 r' c) := by
  refine extractStridedSlice_apply ![0, 0] x hsl (ix2 r c) (ix2 r' c) fun a => ?_
  match a with
  | ⟨0, _⟩ =>
    show r'.val = 0 + r.val
    omega
  | ⟨1, _⟩ =>
    show c.val = 0 + c.val
    omega

/-- THE GENERAL STATEMENT. Gathering rows of the product of the first Ns rows of h with W, at start words that all
    name one of those Ns rows, is gathering the same rows of the whole product: the clamp into [0, Ns − 1] and the
    clamp into [0, Nb − 1] both leave a word in [0, Ns) alone, and row r of either product is ∑ k, h(r, k) · W(k, q). -/
theorem rowGather_leadingRows {Ns Nb E K D : Nat} (hNs : 0 < Ns) (hle : Ns ≤ Nb)
    (wfs : GatherDims.WF ⟨2, ![Ns, D]⟩ ⟨2, ![E, 1]⟩ ⟨2, ![E, D]⟩ [1] [0] [] [0] [] 1 ![1, D])
    (wfb : GatherDims.WF ⟨2, ![Nb, D]⟩ ⟨2, ![E, 1]⟩ ⟨2, ![E, D]⟩ [1] [0] [] [0] [] 1 ![1, D])
    (h : FVec Ideal ⟨2, ![Nb, K]⟩ .f32) (W : FVec Ideal ⟨2, ![K, D]⟩ .f32)
    (hsl : (⟨2, ![Nb, K]⟩ : Shape).Slices ![0, 0] ⟨2, ![Ns, K]⟩)
    (idxs idxb : IVec ⟨2, ![E, 1]⟩ 32) (word : Fin E → BitVec 32)
    (hs : ∀ e : Fin E, idxs (ix2 e 0) = word e) (hb : ∀ e : Fin E, idxb (ix2 e 0) = word e)
    (hword : ∀ e : Fin E, 0 ≤ (word e).toInt ∧ (word e).toInt < (Ns : ℤ)) :
    Host.gather (rowGather Ns E D wfs)
        (Host.dotGeneral (DotDims.plain Ns K D) none (extractStridedSlice ⟨2, ![Ns, K]⟩ ![0, 0] h hsl) W) idxs
      = Host.gather (rowGather Nb E D wfb) (Host.dotGeneral (DotDims.plain Nb K D) none h W) idxb := by
  funext i
  obtain ⟨e, q, rfl⟩ : ∃ (e : Fin E) (q : Fin D), i = ix2 e q := ⟨i 0, i 1, eq_ix2 i⟩
  obtain ⟨h0, h1⟩ := hword e
  rw [rowGather_apply_of_eq hNs wfs _ idxs e q (word e) (hs e),
    rowGather_apply_of_eq (Nat.lt_of_lt_of_le hNs hle) wfb _ idxb e q (word e) (hb e),
    dotGeneral_plain_apply, dotGeneral_plain_apply]
  refine Finset.sum_congr rfl fun c _ => ?_
  rw [leadingRows_apply h hsl _ ⟨min (word e).toInt.toNat (Nb - 1), by omega⟩ (by show min _ _ = min _ _; omega) c]

end General

/-- FIRST LAYER. The rows the kernel gathers from the product of the first 25 rows are the rows the reference gathers
    from the whole product, when every source word names one of the 25 graph nodes: row s of the small product is row
    s of the whole one, and for 0 ≤ s < 25 both lookups (wrapped at 25 and clamped to [0, 24]; wrapped at 204800 and
    clamped to [0, 204799]) read row s. -/
theorem gatherEq1 (h : FVec Ideal Cert.KernelIdeal.S204800x256 .f32) (W : FVec Ideal Cert.KernelIdeal.S256x128 .f32)
    (src : IVec Cert.KernelIdeal.S75 32)
    (hsrc : ∀ e : Fin 75, 0 ≤ (src (ix1 e)).toInt ∧ (src (ix1 e)).toInt < 25)
    (hsl : Cert.KernelIdeal.S204800x256.Slices ![0, 0] Cert.KernelIdeal.S25x256)
    (hb : Cert.KernelIdeal.S_.BroadcastsInDim Cert.KernelIdeal.S75 ![])
    (hcol : Cert.KernelIdeal.S75.BroadcastsInDim Cert.KernelIdeal.S75x1 ![0])
    (hb' : Cert.ReferenceIdeal.S_.BroadcastsInDim Cert.ReferenceIdeal.S75 ![])
    (hcol' : Cert.ReferenceIdeal.S75.BroadcastsInDim Cert.ReferenceIdeal.S75x1 ![0]) :
    Host.gather Cert.KernelIdeal.gather_S25x128_S75x1_S75x128_1_0_n_n_0_1_1128
        (Host.dotGeneral Cert.KernelIdeal.dot_S25x256_S256x128_S25x128_1_0_0_1_n_n none
          (extractStridedSlice Cert.KernelIdeal.S25x256 ![0, 0] h hsl) W)
        (broadcastInDim Cert.KernelIdeal.S75x1 ![0] hcol (wrapIdx Cert.KernelIdeal.S75 hb 25#32 src))
      = Host.gather Cert.ReferenceIdeal.gather_S204800x128_S75x1_S75x128_1_0_n_n_0_1_1128
        (Host.dotGeneral Cert.ReferenceIdeal.dot_S204800x256_S256x128_S204800x128_1_0_0_1_n_n none h W)
        (broadcastInDim Cert.ReferenceIdeal.S75x1 ![0] hcol' (wrapIdx Cert.ReferenceIdeal.S75 hb' 204800#32 src)) := by
  have hg : Cert.KernelIdeal.gather_S25x128_S75x1_S75x128_1_0_n_n_0_1_1128
      = Cert.ReferenceIdeal.Hand.rowGather 25 75 128
          Cert.KernelIdeal.Facts₀.gather_S25x128_S75x1_S75x128_1_0_n_n_0_1_1128_wf := rfl
  have hg' : Cert.ReferenceIdeal.gather_S204800x128_S75x1_S75x128_1_0_n_n_0_1_1128
      = Cert.ReferenceIdeal.Hand.rowGather 204800 75 128
          Cert.ReferenceIdeal.Facts₀.gather_S204800x128_S75x1_S75x128_1_0_n_n_0_1_1128_wf := rfl
  have hd : Cert.KernelIdeal.dot_S25x256_S256x128_S25x128_1_0_0_1_n_n = DotDims.plain 25 256 128 := rfl
  have hd' : Cert.ReferenceIdeal.dot_S204800x256_S256x128_S204800x128_1_0_0_1_n_n = DotDims.plain 204800 256 128 := rfl
  rw [hg, hg', hd, hd']
  refine rowGather_leadingRows (by omega) (by omega) _ _ h W hsl _ _ (fun e => src (ix1 e)) (fun e => ?_) (fun e => ?_)
    (fun e => ⟨(hsrc e).1, by have := (hsrc e).2; omega⟩)
  · exact (Cert.ReferenceIdeal.Hand.bcastCol_apply hcol _ e 0).trans
      (wrapIdx_of_nonneg _ hb 25#32 src (ix1 e) (hsrc e).1)
  · exact (Cert.ReferenceIdeal.Hand.bcastCol_apply hcol' _ e 0).trans
      (wrapIdx_of_nonneg _ hb' 204800#32 src (ix1 e) (hsrc e).1)

/-- SECOND LAYER: the same with 128 input and 64 output features. -/
theorem gatherEq2 (h : FVec Ideal Cert.KernelIdeal.S204800x128 .f32) (W : FVec Ideal Cert.KernelIdeal.S128x64 .f32)
    (src : IVec Cert.KernelIdeal.S75 32)
    (hsrc : ∀ e : Fin 75, 0 ≤ (src (ix1 e)).toInt ∧ (src (ix1 e)).toInt < 25)
    (hsl : Cert.KernelIdeal.S204800x128.Slices ![0, 0] Cert.KernelIdeal.S25x128)
    (hb : Cert.KernelIdeal.S_.BroadcastsInDim Cert.KernelIdeal.S75 ![])
    (hcol : Cert.KernelIdeal.S75.BroadcastsInDim Cert.KernelIdeal.S75x1 ![0])
    (hb' : Cert.ReferenceIdeal.S_.BroadcastsInDim Cert.ReferenceIdeal.S75 ![])
    (hcol' : Cert.ReferenceIdeal.S75.BroadcastsInDim Cert.ReferenceIdeal.S75x1 ![0]) :
    Host.gather Cert.KernelIdeal.gather_S25x64_S75x1_S75x64_1_0_n_n_0_1_164
        (Host.dotGeneral Cert.KernelIdeal.dot_S25x128_S128x64_S25x64_1_0_0_1_n_n none
          (extractStridedSlice Cert.KernelIdeal.S25x128 ![0, 0] h hsl) W)
        (broadcastInDim Cert.KernelIdeal.S75x1 ![0] hcol (wrapIdx Cert.KernelIdeal.S75 hb 25#32 src))
      = Host.gather Cert.ReferenceIdeal.gather_S204800x64_S75x1_S75x64_1_0_n_n_0_1_164
        (Host.dotGeneral Cert.ReferenceIdeal.dot_S204800x128_S128x64_S204800x64_1_0_0_1_n_n none h W)
        (broadcastInDim Cert.ReferenceIdeal.S75x1 ![0] hcol' (wrapIdx Cert.ReferenceIdeal.S75 hb' 204800#32 src)) := by
  have hg : Cert.KernelIdeal.gather_S25x64_S75x1_S75x64_1_0_n_n_0_1_164
      = Cert.ReferenceIdeal.Hand.rowGather 25 75 64
          Cert.KernelIdeal.Facts₀.gather_S25x64_S75x1_S75x64_1_0_n_n_0_1_164_wf := rfl
  have hg' : Cert.ReferenceIdeal.gather_S204800x64_S75x1_S75x64_1_0_n_n_0_1_164
      = Cert.ReferenceIdeal.Hand.rowGather 204800 75 64
          Cert.ReferenceIdeal.Facts₀.gather_S204800x64_S75x1_S75x64_1_0_n_n_0_1_164_wf := rfl
  have hd : Cert.KernelIdeal.dot_S25x128_S128x64_S25x64_1_0_0_1_n_n = DotDims.plain 25 128 64 := rfl
  have hd' : Cert.ReferenceIdeal.dot_S204800x128_S128x64_S204800x64_1_0_0_1_n_n = DotDims.plain 204800 128 64 := rfl
  rw [hg, hg', hd, hd']
  refine rowGather_leadingRows (by omega) (by omega) _ _ h W hsl _ _ (fun e => src (ix1 e)) (fun e => ?_) (fun e => ?_)
    (fun e => ⟨(hsrc e).1, by have := (hsrc e).2; omega⟩)
  · exact (Cert.ReferenceIdeal.Hand.bcastCol_apply hcol _ e 0).trans
      (wrapIdx_of_nonneg _ hb 25#32 src (ix1 e) (hsrc e).1)
  · exact (Cert.ReferenceIdeal.Hand.bcastCol_apply hcol' _ e 0).trans
      (wrapIdx_of_nonneg _ hb' 204800#32 src (ix1 e) (hsrc e).1)

end Cert.Bridge

end
-- ==== Proof.LibRowSet.lean ====
/-
  GENERAL LEMMA: writing M whole rows over the head of an [N, D] array, READ AT AN INDEX, for ARBITRARY extents
  N (rows of the operand), M ≤ N (rows of the update), D (features) and any element type.

  * a left fold of "replace the entry the step lands at" over a list, read at one index (`foldl_set_apply`): the value
    is v as soon as every step that lands there writes v and either some step lands there or the start already holds v;
    nothing in it mentions a shape;
  * the whole-window row write (`x.at[:M].set(u)`: ONE start index vector holding the row start, both update axes window
    axes: `rowSet`, `rowSet_resultIdx`, `scatterSetRows_apply`): with the start word 0, update (a, q) lands at (a, q),
    all landing places distinct, so result (p, q) is the update's entry when p < M and the operand's own otherwise.
  Nothing here mentions a program: the dimension-number record is built from a well-formedness fact the caller has.
-/
import Idealize.ShloMosaic.PureOps.ShapeOps
import Idealize.ShloMosaic.Lib.ValueIdx

noncomputable section

namespace Cert.ReferenceIdeal.Hand

open Idealize.ShloMosaic Idealize.ShloMosaic.ValueIdx

/-! ## A fold of single-entry replacements, read at one index -/

section Fold
variable {ι κ α : Type}

/-- A left fold of a step that, at a list element n, leaves the entry at i' alone unless n lands there (`g n = some i'`)
    and then writes `u n`: if every element that lands at i' writes v, and either some element lands there or the
    start x already holds v at i', the fold holds v at i'. By induction on the list, the start generalised. -/
theorem foldl_set_apply (step : (ι → α) → κ → (ι → α)) (g : κ → Option ι) (u : κ → α) (i' : ι) (v : α)
    (hhit : ∀ r n, g n = some i' → step r n i' = u n)
    (hmiss : ∀ r n, g n ≠ some i' → step r n i' = r i') :
    ∀ (l : List κ) (x : ι → α), (∀ m ∈ l, g m = some i' → u m = v) → ((∃ m ∈ l, g m = some i') ∨ x i' = v) →
      l.foldl step x i' = v := by
  intro l
  induction l with
  | nil =>
    intro x _ h
    rcases h with ⟨m, hm, _⟩ | h
    · exact absurd hm (List.not_mem_nil)
    · exact h
  | cons m l ih =>
    intro x hv h
    rw [List.foldl_cons]
    refine ih (step x m) (fun m' hm' => hv m' (List.mem_cons_of_mem _ hm')) ?_
    by_cases hg : g m = some i'
    · exact Or.inr ((hhit x m hg).trans (hv m (List.mem_cons_self ..) hg))
    · rcases h with ⟨m', hm', hg'⟩ | h
      · rcases List.mem_cons.1 hm' with rfl | hm'
        · exact absurd hg' hg
        · exact Or.inl ⟨m', hm', hg'⟩
      · exact Or.inr ((hmiss x m hg).trans h)

end Fold

/-! ## Writing whole rows over the head of an array -/

section RowSet

/-- The dimension numbers of a scatter that writes an [M, D] update as ONE window into an [N, D] operand at one start
    index vector holding the row start: both update axes are window axes, nothing is inserted, the row axis is indexed. -/
abbrev rowSet (N M D : Nat) (wf : ScatterDims.WF ⟨2, ![N, D]⟩ ⟨1, ![1]⟩ ⟨2, ![M, D]⟩ [0, 1] [] [0] 0) :
    ScatterDims ⟨2, ![N, D]⟩ ⟨1, ![1]⟩ ⟨2, ![M, D]⟩ where
  updateWindowDims := [0, 1]
  insertedWindowDims := []
  scatterDimsToOperandDims := [0]
  indexVectorDim := 0
  wf := wf

variable {N M D w : Nat} (wf : ScatterDims.WF ⟨2, ![N, D]⟩ ⟨1, ![1]⟩ ⟨2, ![M, D]⟩ [0, 1] [] [0] 0)
  (idx : IVec ⟨1, ![1]⟩ w)

/-- On the row axis the window starts at the one start word, read signed … -/
theorem rowSet_start_zero (a : Fin M) (q : Fin D) :
    (rowSet N M D wf).start (ix2 a q) idx 0 = (idx (ix1 0)).toInt := by
  unfold ScatterDims.start
  rw [dif_pos (show (0 : Fin 2) ∈ (rowSet N M D wf).scatterDimsToOperandDims from List.mem_singleton.mpr rfl)]
  have hsi : (rowSet N M D wf).siIdx (ix2 a q) ⟨List.idxOf (0 : Fin 2) (rowSet N M D wf).scatterDimsToOperandDims,
      List.idxOf_lt_length_iff.2 (List.mem_singleton.mpr rfl)⟩ = ix1 0 := by
    funext b; refine Fin.ext ?_
    match b with
    | ⟨0, _⟩ => rfl
  rw [hsi]

/-- … and on the feature axis at 0. -/
theorem rowSet_start_one (a : Fin M) (q : Fin D) :
    (rowSet N M D wf).start (ix2 a q) idx 1 = 0 := by
  unfold ScatterDims.start
  rw [dif_neg (show (1 : Fin 2) ∉ [(0 : Fin 2)] by decide)]

/-- The window coordinate of update (a, q) is a on the row axis … -/
theorem rowSet_window_zero (a : Fin M) (q : Fin D) :
    (rowSet N M D wf).window (ix2 a q) 0 = a.val := by
  unfold ScatterDims.window
  have h0 : (0 : Fin 2) ∈ (rowSet N M D wf).sKept := by
    show (0 : Fin 2) ∈ (List.finRange 2).filter (· ∉ ([] : List (Fin 2)))
    decide
  rw [dif_pos h0]
  rfl

/-- … and q on the feature axis. -/
theorem rowSet_window_one (a : Fin M) (q : Fin D) :
    (rowSet N M D wf).window (ix2 a q) 1 = q.val := by
  unfold ScatterDims.window
  have h1 : (1 : Fin 2) ∈ (rowSet N M D wf).sKept := by
    show (1 : Fin 2) ∈ (List.finRange 2).filter (· ∉ ([] : List (Fin 2)))
    decide
  rw [dif_pos h1]
  rfl

/-- With the start word 0 and the update no taller than the operand, update (a, q) lands at (a, q). -/
theorem rowSet_resultIdx (hMN : M ≤ N) (h0 : (idx (ix1 0)).toInt = 0) (a : Fin M) (q : Fin D) :
    (rowSet N M D wf).resultIdx? (ix2 a q) idx = some (ix2 ⟨a.val, lt_of_lt_of_le a.isLt hMN⟩ q) := by
  unfold ScatterDims.resultIdx?
  have h : ∀ b : Fin 2, 0 ≤ (rowSet N M D wf).start (ix2 a q) idx b + ((rowSet N M D wf).window (ix2 a q) b : ℕ)
      ∧ (rowSet N M D wf).start (ix2 a q) idx b + ((rowSet N M D wf).window (ix2 a q) b : ℕ)
          < ((⟨2, ![N, D]⟩ : Shape).size b : ℤ) := by
    intro b
    match b with
    | ⟨0, _⟩ =>
      show 0 ≤ (rowSet N M D wf).start (ix2 a q) idx 0 + ((rowSet N M D wf).window (ix2 a q) 0 : ℕ)
        ∧ (rowSet N M D wf).start (ix2 a q) idx 0 + ((rowSet N M D wf).window (ix2 a q) 0 : ℕ) < (N : ℤ)
      rw [rowSet_start_zero, rowSet_window_zero, h0]
      have := a.isLt
      omega
    | ⟨1, _⟩ =>
      show 0 ≤ (rowSet N M D wf).start (ix2 a q) idx 1 + ((rowSet N M D wf).window (ix2 a q) 1 : ℕ)
        ∧ (rowSet N M D wf).start (ix2 a q) idx 1 + ((rowSet N M D wf).window (ix2 a q) 1 : ℕ) < (D : ℤ)
      rw [rowSet_start_one, rowSet_window_one]
      have := q.isLt
      omega
  rw [dif_pos h]
  congr 1
  funext b
  refine Fin.ext ?_
  match b with
  | ⟨0, _⟩ =>
    show ((rowSet N M D wf).start (ix2 a q) idx 0 + ((rowSet N M D wf).window (ix2 a q) 0 : ℕ)).toNat = a.val
    rw [rowSet_start_zero, rowSet_window_zero, h0]
    omega
  | ⟨1, _⟩ =>
    show ((rowSet N M D wf).start (ix2 a q) idx 1 + ((rowSet N M D wf).window (ix2 a q) 1 : ℕ)).toNat = q.val
    rw [rowSet_start_one, rowSet_window_one]
    omega

/-- WRITING M ROWS OVER THE HEAD OF AN [N, D] ARRAY, AT (p, q): the update's entry in a row below M, the operand's own
    entry from row M on. Update (a, q') lands at (a, q'), so (p, q) is met by exactly the update (p, q) when p < M and by
    none otherwise; the fold over the update indices then leaves that update's entry, or the operand's. -/
theorem scatterSetRows_apply {α : Type} (hMN : M ≤ N) (h0 : (idx (ix1 0)).toInt = 0)
    (x : (⟨2, ![N, D]⟩ : Shape).Idx → α) (upd : (⟨2, ![M, D]⟩ : Shape).Idx → α) (p : Fin N) (q : Fin D) :
    Host.scatter (rowSet N M D wf) (fun _ b => b) x idx upd (ix2 p q)
      = if h : p.val < M then upd (ix2 ⟨p.val, h⟩ q) else x (ix2 p q) := by
  unfold Host.scatter
  refine foldl_set_apply _
    (fun n => (rowSet N M D wf).resultIdx? ((⟨2, ![M, D]⟩ : Shape).rowMajor.symm n) idx)
    (fun n => upd ((⟨2, ![M, D]⟩ : Shape).rowMajor.symm n)) (ix2 p q) _ ?hhit ?hmiss _ x ?hv ?hex
  case hhit =>
    intro r n hg
    dsimp only at hg ⊢
    generalize (rowSet N M D wf).resultIdx? ((⟨2, ![M, D]⟩ : Shape).rowMajor.symm n) idx = o at hg ⊢
    subst hg
    show (if ix2 p q = ix2 p q then _ else _) = _
    rw [if_pos rfl]
  case hmiss =>
    intro r n hg
    dsimp only at hg ⊢
    generalize (rowSet N M D wf).resultIdx? ((⟨2, ![M, D]⟩ : Shape).rowMajor.symm n) idx = o at hg ⊢
    cases o with
    | none => rfl
    | some i =>
      show (if ix2 p q = i then _ else _) = _
      rw [if_neg]
      intro h
      exact hg (by rw [h])
  case hv =>
    intro m _ hg
    obtain ⟨a, q', ha⟩ : ∃ (a : Fin M) (q' : Fin D), (⟨2, ![M, D]⟩ : Shape).rowMajor.symm m = ix2 a q' :=
      ⟨_, _, eq_ix2 _⟩
    rw [ha] at hg ⊢
    rw [rowSet_resultIdx wf idx hMN h0] at hg
    have hf := Option.some.inj hg
    have e0 : a.val = p.val := congrArg (fun f => (f 0).val) hf
    have e1 : q'.val = q.val := congrArg (fun f => (f 1).val) hf
    have hp : p.val < M := by rw [← e0]; exact a.isLt
    rw [dif_pos hp]
    have ea : a = ⟨p.val, hp⟩ := Fin.ext e0
    have eq : q' = q := Fin.ext e1
    rw [ea, eq]
  case hex =>
    by_cases hp : p.val < M
    · left
      refine ⟨(⟨2, ![M, D]⟩ : Shape).rowMajor (ix2 ⟨p.val, hp⟩ q), List.mem_finRange _, ?_⟩
      rw [Equiv.symm_apply_apply, rowSet_resultIdx wf idx hMN h0]
    · right
      rw [dif_neg hp]

end RowSet

end Cert.ReferenceIdeal.Hand

end
-- ==== Proof.Placement.lean ====
import proofs.«133155_j46127948759115_1_alg».proof.Proof.Gen.KernelIdeal
import proofs.«133155_j46127948759115_1_alg».proof.Proof.Gen.ReferenceIdeal
import proofs.«133155_j46127948759115_1_alg».proof.Proof.LibRowGatherScatter
import proofs.«133155_j46127948759115_1_alg».proof.Proof.LibRowSet

noncomputable section

open scoped BigOperators

namespace Cert.Bridge

open Idealize.ShloMosaic Idealize.ShloMosaic.ValueIdx
open Cert.ReferenceIdeal.Hand

/-- FIRST LAYER. The kernel writes the 25 corrected rows over the head of the row-blocked result R; the reference joins
    the 25 aggregated rows to the tail of the whole product P and then adds the bias and cuts off at zero. When R is
    "P plus bias, cut off at zero" entry by entry, the two arrays are one: in a row below 25 both read the aggregated
    row plus bias cut off at zero, in a row from 25 on both read P's row plus bias cut off at zero. -/
theorem placement1 (R P : FVec Ideal Cert.KernelIdeal.S204800x128 .f32) (agg : FVec Ideal Cert.KernelIdeal.S25x128 .f32)
    (b : FVec Ideal Cert.KernelIdeal.S128 .f32)
    (hR : ∀ (p : Fin 204800) (q : Fin 128), R (ix2 p q) = max (P (ix2 p q) + b (ix1 q)) 0)
    (hb1 : Cert.KernelIdeal.S_.BroadcastsInDim Cert.KernelIdeal.S1 ![])
    (hrow : Cert.KernelIdeal.S128.BroadcastsInDim Cert.KernelIdeal.S1x128 ![1])
    (h25 : Cert.KernelIdeal.S1x128.BroadcastsInDim Cert.KernelIdeal.S25x128 ![0, 1])
    (hz25 : Cert.KernelIdeal.S_.BroadcastsInDim Cert.KernelIdeal.S25x128 ![])
    (hrow' : Cert.ReferenceIdeal.S128.BroadcastsInDim Cert.ReferenceIdeal.S1x128 ![1])
    (hN : Cert.ReferenceIdeal.S1x128.BroadcastsInDim Cert.ReferenceIdeal.S204800x128 ![0, 1])
    (hzN : Cert.ReferenceIdeal.S_.BroadcastsInDim Cert.ReferenceIdeal.S204800x128 ![])
    (hsl : Cert.ReferenceIdeal.S204800x128.Slices ![25, 0] Cert.ReferenceIdeal.S204775x128)
    (hcat : Shape.Concatenates [Cert.ReferenceIdeal.S25x128, Cert.ReferenceIdeal.S204775x128] Cert.ReferenceIdeal.S204800x128 0) :
    Host.scatter Cert.KernelIdeal.scatter_S204800x128_S1_S25x128_01_n_0_0 (fun _ u => u) R
        (broadcastInDim Cert.KernelIdeal.S1 ![] hb1 (constantI Cert.KernelIdeal.S_ 32 0#32))
        (maximumf (addf agg (broadcastInDim Cert.KernelIdeal.S25x128 ![0, 1] h25 (broadcastInDim Cert.KernelIdeal.S1x128 ![1] hrow b)))
          (broadcastInDim Cert.KernelIdeal.S25x128 ![] hz25 (constant (F := Ideal) Cert.KernelIdeal.S_ .f32 0x00000000#32)))
      = maximumf
          (addf (concatenate Cert.ReferenceIdeal.S204800x128 0
              [⟨Cert.ReferenceIdeal.S25x128, agg⟩, ⟨Cert.ReferenceIdeal.S204775x128, extractStridedSlice Cert.ReferenceIdeal.S204775x128 ![25, 0] P hsl⟩] hcat)
            (broadcastInDim Cert.ReferenceIdeal.S204800x128 ![0, 1] hN (broadcastInDim Cert.ReferenceIdeal.S1x128 ![1] hrow' b)))
          (broadcastInDim Cert.ReferenceIdeal.S204800x128 ![] hzN (constant (F := Ideal) Cert.ReferenceIdeal.S_ .f32 0x00000000#32)) := by
  funext i
  obtain ⟨p, q, rfl⟩ : ∃ (p : Fin 204800) (q : Fin 128), i = ix2 p q := ⟨i 0, i 1, eq_ix2 i⟩
  -- the program's record of dimension numbers is the whole-window row write's
  have hrec : Cert.KernelIdeal.scatter_S204800x128_S1_S25x128_01_n_0_0
      = rowSet 204800 25 128 Cert.KernelIdeal.Gen.scatter_S204800x128_S1_S25x128_01_n_0_0_wf := rfl
  -- the one start word is 0
  have hidx : ((broadcastInDim Cert.KernelIdeal.S1 ![] hb1 (constantI Cert.KernelIdeal.S_ 32 0#32)) (ix1 0)).toInt = 0 := by
    rw [bcastScalar_apply]
    rfl
  rw [hrec, scatterSetRows_apply _ _ (by norm_num) hidx]
  rw [reluOps_apply, addf_apply, bcastRows_apply, bcastRow_apply]
  by_cases hp : p.val < 25
  · -- a row below 25: both sides read the aggregated row plus bias, cut off at zero
    rw [dif_pos hp, reluOps_apply, addf_apply, bcastRows_apply, bcastRow_apply]
    rw [concatenate_pair_apply_left (t := Cert.ReferenceIdeal.S204800x128) (s₁ := Cert.ReferenceIdeal.S25x128)
      (s₂ := Cert.ReferenceIdeal.S204775x128) (0 : Fin 2) agg _ hcat (ix2 p q) rfl (ix2 (⟨p.val, hp⟩ : Fin 25) q)
      (fun b => match b with | ⟨0, _⟩ => rfl | ⟨1, _⟩ => rfl)]
  · -- a row from 25 on: the kernel keeps R's entry, the reference reads the product's tail at row p − 25 + 25 = p
    rw [dif_neg hp, hR]
    have hp' : p.val - 25 < 204775 := by have := p.isLt; omega
    rw [concatenate_pair_apply_right (t := Cert.ReferenceIdeal.S204800x128) (s₁ := Cert.ReferenceIdeal.S25x128)
      (s₂ := Cert.ReferenceIdeal.S204775x128) (0 : Fin 2) agg _ hcat (ix2 p q) rfl rfl (ix2 (⟨p.val - 25, hp'⟩ : Fin 204775) q)
      (fun b => match b with | ⟨0, _⟩ => fun h => absurd rfl h | ⟨1, _⟩ => fun _ => rfl)
      (show (p.val - 25) + 25 = p.val by omega)]
    rw [extractStridedSlice_apply ![25, 0] P hsl (ix2 (⟨p.val - 25, hp'⟩ : Fin 204775) q) (ix2 p q)
      (fun a => match a with
        | ⟨0, _⟩ => show p.val = 25 + (p.val - 25) by omega
        | ⟨1, _⟩ => show q.val = 0 + q.val by omega)]

/-- SECOND LAYER: 64 features, no cut-off. -/
theorem placement2 (R P : FVec Ideal Cert.KernelIdeal.S204800x64 .f32) (agg : FVec Ideal Cert.KernelIdeal.S25x64 .f32)
    (b : FVec Ideal Cert.KernelIdeal.S64 .f32)
    (hR : ∀ (p : Fin 204800) (q : Fin 64), R (ix2 p q) = P (ix2 p q) + b (ix1 q))
    (hb1 : Cert.KernelIdeal.S_.BroadcastsInDim Cert.KernelIdeal.S1 ![])
    (hrow : Cert.KernelIdeal.S64.BroadcastsInDim Cert.KernelIdeal.S1x64 ![1])
    (h25 : Cert.KernelIdeal.S1x64.BroadcastsInDim Cert.KernelIdeal.S25x64 ![0, 1])
    (hrow' : Cert.ReferenceIdeal.S64.BroadcastsInDim Cert.ReferenceIdeal.S1x64 ![1])
    (hN : Cert.ReferenceIdeal.S1x64.BroadcastsInDim Cert.ReferenceIdeal.S204800x64 ![0, 1])
    (hsl : Cert.ReferenceIdeal.S204800x64.Slices ![25, 0] Cert.ReferenceIdeal.S204775x64)
    (hcat : Shape.Concatenates [Cert.ReferenceIdeal.S25x64, Cert.ReferenceIdeal.S204775x64] Cert.ReferenceIdeal.S204800x64 0) :
    Host.scatter Cert.KernelIdeal.scatter_S204800x64_S1_S25x64_01_n_0_0 (fun _ u => u) R
        (broadcastInDim Cert.KernelIdeal.S1 ![] hb1 (constantI Cert.KernelIdeal.S_ 32 0#32))
        (addf agg (broadcastInDim Cert.KernelIdeal.S25x64 ![0, 1] h25 (broadcastInDim Cert.KernelIdeal.S1x64 ![1] hrow b)))
      = addf (concatenate Cert.ReferenceIdeal.S204800x64 0
              [⟨Cert.ReferenceIdeal.S25x64, agg⟩, ⟨Cert.ReferenceIdeal.S204775x64, extractStridedSlice Cert.ReferenceIdeal.S204775x64 ![25, 0] P hsl⟩] hcat)
            (broadcastInDim Cert.ReferenceIdeal.S204800x64 ![0, 1] hN (broadcastInDim Cert.ReferenceIdeal.S1x64 ![1] hrow' b)) := by
  funext i
  obtain ⟨p, q, rfl⟩ : ∃ (p : Fin 204800) (q : Fin 64), i = ix2 p q := ⟨i 0, i 1, eq_ix2 i⟩
  -- the program's record of dimension numbers is the whole-window row write's
  have hrec : Cert.KernelIdeal.scatter_S204800x64_S1_S25x64_01_n_0_0
      = rowSet 204800 25 64 Cert.KernelIdeal.Gen.scatter_S204800x64_S1_S25x64_01_n_0_0_wf := rfl
  -- the one start word is 0
  have hidx : ((broadcastInDim Cert.KernelIdeal.S1 ![] hb1 (constantI Cert.KernelIdeal.S_ 32 0#32)) (ix1 0)).toInt = 0 := by
    rw [bcastScalar_apply]
    rfl
  rw [hrec, scatterSetRows_apply _ _ (by norm_num) hidx]
  rw [addf_apply, bcastRows_apply, bcastRow_apply]
  by_cases hp : p.val < 25
  · -- a row below 25: both sides read the aggregated row plus bias
    rw [dif_pos hp, addf_apply, bcastRows_apply, bcastRow_apply]
    rw [concatenate_pair_apply_left (t := Cert.ReferenceIdeal.S204800x64) (s₁ := Cert.ReferenceIdeal.S25x64)
      (s₂ := Cert.ReferenceIdeal.S204775x64) (0 : Fin 2) agg _ hcat (ix2 p q) rfl (ix2 (⟨p.val, hp⟩ : Fin 25) q)
      (fun b => match b with | ⟨0, _⟩ => rfl | ⟨1, _⟩ => rfl)]
  · -- a row from 25 on: the kernel keeps R's entry, the reference reads the product's tail at row p − 25 + 25 = p
    rw [dif_neg hp, hR]
    have hp' : p.val - 25 < 204775 := by have := p.isLt; omega
    rw [concatenate_pair_apply_right (t := Cert.ReferenceIdeal.S204800x64) (s₁ := Cert.ReferenceIdeal.S25x64)
      (s₂ := Cert.ReferenceIdeal.S204775x64) (0 : Fin 2) agg _ hcat (ix2 p q) rfl rfl (ix2 (⟨p.val - 25, hp'⟩ : Fin 204775) q)
      (fun b => match b with | ⟨0, _⟩ => fun h => absurd rfl h | ⟨1, _⟩ => fun _ => rfl)
      (show (p.val - 25) + 25 = p.val by omega)]
    rw [extractStridedSlice_apply ![25, 0] P hsl (ix2 (⟨p.val - 25, hp'⟩ : Fin 204775) q) (ix2 p q)
      (fun a => match a with
        | ⟨0, _⟩ => show p.val = 25 + (p.val - 25) by omega
        | ⟨1, _⟩ => show q.val = 0 + q.val by omega)]

end Cert.Bridge

end
-- ==== Proof.Bridge.lean ====
import proofs.«133155_j46127948759115_1_alg».proof.Proof.KChain
import proofs.«133155_j46127948759115_1_alg».proof.Proof.Region0
import proofs.«133155_j46127948759115_1_alg».proof.Proof.Region1
import proofs.«133155_j46127948759115_1_alg».proof.Proof.Region2
import proofs.«133155_j46127948759115_1_alg».proof.Proof.GatherEq
import proofs.«133155_j46127948759115_1_alg».proof.Proof.Placement
import proofs.«133155_j46127948759115_1_alg».proof.Proof.Gen.ReferenceIdeal.Read
import Idealize.ShloMosaic.Lib.ValueLayout

/-!
  The idealized kernel program's result is the reference's, stage by stage, when every edge source names one of the
  25 graph nodes. Each of the kernel's three regions leaves "rows times weight plus bias" (cut off at zero in the
  first and third); the host operations between them replace the first 25 rows by the aggregated ones. The
  reference computes the whole product, aggregates, joins the 25 aggregated rows to the other rows of the product
  and then adds the bias. Stage by stage the two arrays are the same function of the arguments:
    h1 (after the first layer), h2 reshaped to one row per batch element, h3 (after the first dense layer), the result.
-/

set_option maxRecDepth 16384

noncomputable section

open scoped BigOperators

namespace Cert.Bridge

open Cert.KernelIdeal Cert.KernelIdeal.Gen Cert.KernelIdeal.Hand
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg) (c : Dev nD)

/-- The argument arrays as launched, at their literal types. -/
abbrev x0 : FVec Ideal S8192x256x25 .f32 := m ((c : Thread nD τ).loc main_arg0)
abbrev x1 : FVec Ideal S256x128 .f32 := m ((c : Thread nD τ).loc main_arg1)
abbrev x2 : FVec Ideal S128 .f32 := m ((c : Thread nD τ).loc main_arg2)
abbrev x3 : FVec Ideal S128x64 .f32 := m ((c : Thread nD τ).loc main_arg3)
abbrev x4 : FVec Ideal S64 .f32 := m ((c : Thread nD τ).loc main_arg4)
abbrev x5 : FVec Ideal S1600x64 .f32 := m ((c : Thread nD τ).loc main_arg5)
abbrev x6 : FVec Ideal S64 .f32 := m ((c : Thread nD τ).loc main_arg6)
abbrev x7 : FVec Ideal S64x1 .f32 := m ((c : Thread nD τ).loc main_arg7)
abbrev x8 : FVec Ideal S1 .f32 := m ((c : Thread nD τ).loc main_arg8)
abbrev x9 : IVec S75 32 := m ((c : Thread nD τ).loc main_arg9)
abbrev x10 : IVec S75 32 := m ((c : Thread nD τ).loc main_arg10)

/-! ## The first layer -/

/-- Entry (p, q) of the first region's output: the whole product's entry plus the bias, cut off at zero. -/
theorem R0_entry (p : Fin 204800) (q : Fin 128) :
    (W2 m ρ c (Proc.devRef .tc main_v3) : FVec Ideal S204800x128 .f32) (ix2 p q)
      = max (Cert.ReferenceIdeal.Read.val_main_v2 (F := Ideal) (x0 m c) (x1 m c) (ix2 p q) + x2 m c (ix1 q)) 0 := by
  rw [W2_v3]
  refine (region0_out_apply (V1 m ρ) c p q).trans ?_
  rw [show lhs0 (V1 m ρ) c = _ from W1_v1 m ρ c, show rhs0 (V1 m ρ) c = _ from W1_arg1 m ρ c,
    show bias0 (V1 m ρ) c = _ from W1_v2 m ρ c, Cert.ReferenceIdeal.Read.val_main_v2_apply, shapeCast_a_1a_apply]
  have el : ∀ k : Fin 256, Cert.ReferenceIdeal.Read.lidx_main_v2 (ix2 p q) k = ix2 p k := fun k =>
    funext fun a => Fin.ext (by match a with | ⟨0, _⟩ => rfl | ⟨1, _⟩ => rfl)
  have er : ∀ k : Fin 256, Cert.ReferenceIdeal.Read.ridx_main_v2 (ix2 p q) k = ix2 k q := fun k =>
    funext fun a => Fin.ext (by match a with | ⟨0, _⟩ => rfl | ⟨1, _⟩ => rfl)
  simp only [el, er]
  rfl

/-- Every edge source names one of the 25 graph nodes. -/
abbrev SrcInRange : Prop := ∀ e : Fin 75, 0 ≤ (x9 m c (ix1 e)).toInt ∧ (x9 m c (ix1 e)).toInt < 25

/-- The edge weights (the reciprocal square root of the product of the two end points' in-degrees) are the reference's. -/
theorem W3_v30 : (W3 m ρ c (Proc.devRef .tc main_v30) : FVec Ideal S75 .f32)
    = Cert.ReferenceIdeal.Read.val_main_v27 (F := Ideal) (x9 m c) (x10 m c) := by
  show StableHlo.after hostOps1 (W2 m ρ c) _ = _
  after_results_simp
  rw [W2_arg9 m ρ c, W2_arg10 m ρ c]
  rfl

set_option maxHeartbeats 8000000 in
/-- The 25 aggregated rows of the first layer plus the bias, before the cut-off: the aggregation is the reference's,
    because the rows gathered from the small product are the rows gathered from the whole one. -/
theorem W3_v46 (hsrc : SrcInRange m c) : (W3 m ρ c (Proc.devRef .tc main_v46) : FVec Ideal S25x128 .f32)
    = addf (Cert.ReferenceIdeal.Read.val_main_v40 (F := Ideal) (x0 m c) (x1 m c) (x9 m c) (x10 m c))
        (broadcastInDim S25x128 ![0, 1] bcast_S1x128_S25x128_0_1 (broadcastInDim S1x128 ![1] bcast_S128_S1x128_1 (x2 m c))) := by
  show StableHlo.after hostOps1 (W2 m ρ c) _ = _
  after_results_simp
  rw [W2_arg9 m ρ c, W2_arg10 m ρ c, W2_arg1 m ρ c, W2_arg2 m ρ c, W2_v1 m ρ c, W1_v1 m ρ c]
  rw [gatherEq1 _ _ _ hsrc _ _ _ Cert.ReferenceIdeal.Gen.bcast_S_S75 Cert.ReferenceIdeal.Gen.bcast_S75_S75x1_0]
  rfl

/-- AFTER THE FIRST LAYER the kernel's activations are the reference's. -/
theorem h1_eq (hsrc : SrcInRange m c) : (W5 m ρ c (Proc.devRef .tc main_v49) : FVec Ideal S204800x128 .f32)
    = Cert.ReferenceIdeal.Read.val_main_v46 (F := Ideal) (x0 m c) (x1 m c) (x2 m c) (x9 m c) (x10 m c) := by
  show StableHlo.after hostOps1_2 (W4 m ρ c) _ = _
  rw [ops_v49, W4_v3 m ρ c, show W4 m ρ c (Proc.devRef .tc main_v47) = _ from ops_v47 (W3 m ρ c), W3_v46 m ρ c hsrc]
  exact (placement1 _ (Cert.ReferenceIdeal.Read.val_main_v2 (F := Ideal) (x0 m c) (x1 m c)) _ _ (R0_entry m ρ c) _ _ _ _
    Cert.ReferenceIdeal.Gen.bcast_S128_S1x128_1 Cert.ReferenceIdeal.Gen.bcast_S1x128_S204800x128_0_1 Cert.ReferenceIdeal.Gen.bcast_S_S204800x128 Cert.ReferenceIdeal.Gen.slices_S204800x128_S204775x128_25_0
    Cert.ReferenceIdeal.Gen.concatenates_S25x128_S204775x128_S204800x128_d0).trans rfl

/-! ## The second layer -/

theorem W4_arg4 : W4 m ρ c (Proc.devRef .tc main_arg4) = m ((c : Thread nD τ).loc main_arg4) :=
  ((show _ = W3 m ρ c _ by kept_host).trans (show _ = W2 m ρ c _ by kept_host)).trans (W2_arg4 m ρ c)

theorem W5_v50 : (W5 m ρ c (Proc.devRef .tc main_v50) : FVec Ideal S1x64 .f32) = shapeCast S1x64 (x4 m c) shapeCasts_S64_S1x64 := by
  show StableHlo.after hostOps1_2 (W4 m ρ c) _ = _
  rw [ops_v50, W4_arg4 m ρ c]

/-- Entry (p, q) of the second region's output: the whole second product's entry plus the bias. -/
theorem R1_entry (hsrc : SrcInRange m c) (p : Fin 204800) (q : Fin 64) :
    (W6 m ρ c (Proc.devRef .tc main_v51) : FVec Ideal S204800x64 .f32) (ix2 p q)
      = Cert.ReferenceIdeal.Read.val_main_v47 (F := Ideal) (x0 m c) (x1 m c) (x2 m c) (x3 m c) (x9 m c) (x10 m c) (ix2 p q) + x4 m c (ix1 q) := by
  rw [W6_v51]
  refine (region1_out_apply (V5 m ρ) c p q).trans ?_
  rw [show lhs1 (V5 m ρ) c = _ from h1_eq m ρ c hsrc, show rhs1 (V5 m ρ) c = _ from W5_arg3 m ρ c,
    show bias1 (V5 m ρ) c = _ from W5_v50 m ρ c, Cert.ReferenceIdeal.Read.val_main_v47_apply, shapeCast_a_1a_apply]
  have el : ∀ k : Fin 128, Cert.ReferenceIdeal.Read.lidx_main_v47 (ix2 p q) k = ix2 p k := fun k =>
    funext fun a => Fin.ext (by match a with | ⟨0, _⟩ => rfl | ⟨1, _⟩ => rfl)
  have er : ∀ k : Fin 128, Cert.ReferenceIdeal.Read.ridx_main_v47 (ix2 p q) k = ix2 k q := fun k =>
    funext fun a => Fin.ext (by match a with | ⟨0, _⟩ => rfl | ⟨1, _⟩ => rfl)
  simp only [el, er]

set_option maxHeartbeats 8000000 in
/-- AFTER THE SECOND LAYER, one row per batch element: the kernel's array is the reference's. -/
theorem h2r_eq (hsrc : SrcInRange m c) : (W7 m ρ c (Proc.devRef .tc main_v72) : FVec Ideal S8192x1600 .f32)
    = Cert.ReferenceIdeal.Read.val_main_v91 (F := Ideal) (x0 m c) (x1 m c) (x2 m c) (x3 m c) (x4 m c) (x9 m c) (x10 m c) := by
  show StableHlo.after hostOps2 (W6 m ρ c) _ = _
  after_results_simp
  rw [W6_arg9 m ρ c, W6_arg10 m ρ c, W6_arg3 m ρ c, W6_arg4 m ρ c, W6_v49 m ρ c, h1_eq m ρ c hsrc, W6_v30 m ρ c, W3_v30 m ρ c]
  rw [gatherEq2 _ _ _ hsrc _ _ _ Cert.ReferenceIdeal.Gen.bcast_S_S75 Cert.ReferenceIdeal.Gen.bcast_S75_S75x1_0]
  exact congrArg (fun z : FVec Ideal S204800x64 .f32 => shapeCast S8192x1600 z shapeCasts_S204800x64_S8192x1600)
    ((placement2 _ (Cert.ReferenceIdeal.Read.val_main_v47 (F := Ideal) (x0 m c) (x1 m c) (x2 m c) (x3 m c) (x9 m c) (x10 m c)) _ _ (R1_entry m ρ c hsrc) _ _ _
      Cert.ReferenceIdeal.Gen.bcast_S64_S1x64_1 Cert.ReferenceIdeal.Gen.bcast_S1x64_S204800x64_0_1 Cert.ReferenceIdeal.Gen.slices_S204800x64_S204775x64_25_0
      Cert.ReferenceIdeal.Gen.concatenates_S25x64_S204775x64_S204800x64_d0).trans rfl)

/-! ## The dense head -/

theorem W7_v73 : (W7 m ρ c (Proc.devRef .tc main_v73) : FVec Ideal S1x64 .f32) = shapeCast S1x64 (x6 m c) shapeCasts_S64_S1x64 := by
  show StableHlo.after hostOps2 (W6 m ρ c) _ = _
  after_results_simp
  rw [W6_arg6 m ρ c]
  rfl

/-- AFTER THE FIRST DENSE LAYER: the third region's output is the reference's array, entry by entry. -/
theorem h3_eq (hsrc : SrcInRange m c) : (W8 m ρ c (Proc.devRef .tc main_v74) : FVec Ideal S8192x64 .f32)
    = Cert.ReferenceIdeal.Read.val_main_v96 (F := Ideal) (x0 m c) (x1 m c) (x2 m c) (x3 m c) (x4 m c) (x5 m c) (x6 m c) (x9 m c) (x10 m c) := by
  funext i
  obtain ⟨p, q, rfl⟩ : ∃ (p : Fin 8192) (q : Fin 64), i = ix2 p q := ⟨i 0, i 1, eq_ix2 i⟩
  rw [W8_v74]
  refine (region2_out_apply (V7 m ρ) c p q).trans ?_
  rw [show lhs2 (V7 m ρ) c = _ from h2r_eq m ρ c hsrc, show rhs2 (V7 m ρ) c = _ from W7_arg5 m ρ c,
    show bias2 (V7 m ρ) c = _ from W7_v73 m ρ c, shapeCast_a_1a_apply]
  unfold Cert.ReferenceIdeal.Read.val_main_v96 Cert.ReferenceIdeal.Read.val_main_v95 Cert.ReferenceIdeal.Read.val_main_call1_v0
    Cert.ReferenceIdeal.Read.val_main_call1_cst Cert.ReferenceIdeal.Read.val_main_v94 Cert.ReferenceIdeal.Read.val_main_v93
  rw [Cert.ReferenceIdeal.Hand.reluOps_apply, addf_apply, Cert.ReferenceIdeal.Hand.bcastRows_apply, Cert.ReferenceIdeal.Hand.bcastRow_apply,
    Cert.ReferenceIdeal.Read.val_main_v92_apply]
  have el : ∀ k : Fin 1600, Cert.ReferenceIdeal.Read.lidx_main_v92 (ix2 p q) k = ix2 p k := fun k =>
    funext fun a => Fin.ext (by match a with | ⟨0, _⟩ => rfl | ⟨1, _⟩ => rfl)
  have er : ∀ k : Fin 1600, Cert.ReferenceIdeal.Read.ridx_main_v92 (ix2 p q) k = ix2 k q := fun k =>
    funext fun a => Fin.ext (by match a with | ⟨0, _⟩ => rfl | ⟨1, _⟩ => rfl)
  simp only [el, er]

/-- THE RESULT: what the kernel program leaves in its result array is the reference's result term of the same arguments. -/
theorem out_eq (hsrc : SrcInRange m c) : (W9 m ρ c (Proc.devRef .tc main_v79) : FVec Ideal S8192x1x1 .f32)
    = Cert.ReferenceIdeal.Read.val_main_v101 (F := Ideal) (x0 m c) (x1 m c) (x2 m c) (x3 m c) (x4 m c) (x5 m c) (x6 m c) (x7 m c) (x8 m c) (x9 m c) (x10 m c) := by
  show StableHlo.after hostOps3 (W8 m ρ c) _ = _
  rw [ops_v79, h3_eq m ρ c hsrc, W8_arg7 m ρ c, W8_arg8 m ρ c]
  rfl

end Cert.Bridge

end
-- ==== Proof.lean ====
/-
  The kernel: a two-layer graph convolution over 204800 = 8192 × 25 node rows followed by a two-layer dense head, in
  three row-blocked matmul + bias (+ cut-off at zero) regions. Only the first 25 rows take part in the graph
  aggregation (75 edges over 25 nodes); the kernel computes every row densely in a region and then overwrites the
  first 25 rows with the aggregated ones, computed on the host from a 25-row product. The reference computes the
  whole product, aggregates by gathering rows of it at the edge sources, joins the 25 aggregated rows to the other
  rows of the product and then adds the bias.

  The two agree when every edge source names one of the 25 nodes (the precondition's last conjunct): the kernel
  gathers from the 25-row product (a source word is wrapped at 25 and clamped into [0, 24]), the reference from the
  204800-row one (wrapped at 204800, clamped into [0, 204799]); for a word in [0, 25) both read the same row, and row
  s of the small product is row s of the whole one. Everything else is the same function of the arguments on both
  sides: the in-degrees and edge weights are computed by the same operations, the regions' "rows times weight plus
  bias" is the host's product plus bias entry by entry (at the extended reals a change of float format is the
  identity and a matmul into a zero accumulator is the plain sum), and overwriting the first 25 rows of "product plus
  bias" is joining 25 rows to the product's tail and adding the bias afterwards. No law of the extended reals beyond
  these rearrangements is used, so the finiteness conjuncts of the precondition are never opened.

  Frames: the kernel's and the idealized kernel's are the generated frames; the reference's is its generated run with
  the result dropped. The idealization rewrote nothing, so its claim is trivial. For the algebraic claim both runs
  end with the result array at the same term: the kernel's run is read back through the three regions and the host
  stretches between them (Proof/Bridge.lean), the reference's through its generated run.
-/
import proofs.«133155_j46127948759115_1_alg».proof.Defs
import proofs.«133155_j46127948759115_1_alg».proof.Proof.Gen.Kernel
import proofs.«133155_j46127948759115_1_alg».proof.Proof.Gen.Kernel.Skeleton
import proofs.«133155_j46127948759115_1_alg».proof.Proof.Gen.Kernel.Launch
import proofs.«133155_j46127948759115_1_alg».proof.Proof.Gen.Kernel.Points
import proofs.«133155_j46127948759115_1_alg».proof.Proof.Gen.Kernel.Frame
import proofs.«133155_j46127948759115_1_alg».proof.Proof.Gen.KernelIdeal
import proofs.«133155_j46127948759115_1_alg».proof.Proof.Gen.KernelIdeal.Skeleton
import proofs.«133155_j46127948759115_1_alg».proof.Proof.Gen.KernelIdeal.Launch
import proofs.«133155_j46127948759115_1_alg».proof.Proof.Gen.KernelIdeal.Points
import proofs.«133155_j46127948759115_1_alg».proof.Proof.Gen.KernelIdeal.Frame
import proofs.«133155_j46127948759115_1_alg».proof.Proof.Gen.ReferenceIdeal
import proofs.«133155_j46127948759115_1_alg».proof.Proof.Gen.Pre_finite_inputs
import proofs.«133155_j46127948759115_1_alg».proof.Proof.Gen.ReferenceIdeal.Run
import proofs.«133155_j46127948759115_1_alg».proof.Proof.Gen.ReferenceIdeal.Read
import proofs.«133155_j46127948759115_1_alg».proof.Proof.KRun
import proofs.«133155_j46127948759115_1_alg».proof.Proof.PreDecode
import proofs.«133155_j46127948759115_1_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both runs end with the result array at one term of the arguments: the kernel's at what its last boundary holds,
    the reference's at its composed term, and the two are equal once every edge source is known to name a node. -/
theorem algebraic : Cert.algebraic_KernelIdeal_ReferenceIdeal := by
  intro m ρ m' ρ' hpre hagree
  refine ⟨fun c => Cert.KernelIdeal.Gen.W9 m ρ c (Proc.devRef .tc Cert.KernelIdeal.main_v79),
    Cert.KernelIdeal.Hand.run_out (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10⟩ := hagree c
  rw [Cert.ReferenceIdeal.Read.val_main_v101_eq, h0, h1, h2, h3, h4, h5, h6, h7, h8, h9, h10]
  exact (Cert.Bridge.out_eq m ρ c (fun e => Cert.Pre_finite_inputs.Hand.src_range _ _ _ _ _ _ _ _ _ _ _ (hpre c) e)).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
